-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S3200000 : Shape := ⟨1, ![3200000]⟩
abbrev S100000 : Shape := ⟨1, ![100000]⟩
abbrev S4x16 : Shape := ⟨2, ![4, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x16 : Shape := ⟨2, ![64, 16]⟩
abbrev S16x2 : Shape := ⟨2, ![16, 2]⟩
abbrev S2 : Shape := ⟨1, ![2]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part8 {F : FTy → Type} [FloatOps F] (main_arg30 : FVec F S16 .f32) (main_arg31 : FVec F S16x2 .f32) (main_arg32 : FVec F S2 .f32) (main_v133 : IVec S_ 1) (main_v136 : IVec S64x16 1) : IVec S_ 1 :=
  let main_c_53 : IVec S_ 1 := constantI S_ 1 1#1
  let main_v137 : IVec S_ 1 := (fun x v => Host.reduce IntOp.andi x v reducesTo_S64x16_S_d0_1 h_S_) main_v136 main_c_53
  let main_v138 : IVec S_ 1 := andi main_v133 main_v137
  let main_v139 : FVec F S16 .f32 := Host.absf main_arg30
  let main_cst_54 : FVec F S_ .f32 := constant S_ .f32 0x7F800000#32
  let main_v140 : FVec F S16 .f32 := broadcastInDim S16 ![] bcast_S_S16 main_cst_54
  let main_v141 : IVec S16 1 := cmpf .olt main_v139 main_v140
  let main_c_55 : IVec S_ 1 := constantI S_ 1 1#1
  let main_v142 : IVec S_ 1 := (fun x v => Host.reduce IntOp.andi x v reducesTo_S16_S_d0 h_S_) main_v141 main_c_55
  let main_v143 : IVec S_ 1 := andi main_v138 main_v142
  let main_v144 : FVec F S16x2 .f32 := Host.absf main_arg31
  let main_cst_56 : FVec F S_ .f32 := constant S_ .f32 0x7F800000#32
  let main_v145 : FVec F S16x2 .f32 := broadcastInDim S16x2 ![] bcast_S_S16x2 main_cst_56
  let main_v146 : IVec S16x2 1 := cmpf .olt main_v144 main_v145
  let main_c_57 : IVec S_ 1 := constantI S_ 1 1#1
  let main_v147 : IVec S_ 1 := (fun x v => Host.reduce IntOp.andi x v reducesTo_S16x2_S_d0_1 h_S_) main_v146 main_c_57
  let main_v148 : IVec S_ 1 := andi main_v143 main_v147
  let main_v149 : FVec F S2 .f32 := Host.absf main_arg32
  let main_cst_58 : FVec F S_ .f32 := constant S_ .f32 0x7F800000#32
  let main_v150 : FVec F S2 .f32 := broadcastInDim S2 ![] bcast_S_S2 main_cst_58
  let main_v151 : IVec S2 1 := cmpf .olt main_v149 main_v150
  let main_c_59 : IVec S_ 1 := constantI S_ 1 1#1
  let main_v152 : IVec S_ 1 := (fun x v => Host.reduce IntOp.andi x v reducesTo_S2_S_d0 h_S_) main_v151 main_c_59
  let main_v153 : IVec S_ 1 := andi main_v148 main_v152
  main_v153

def fn_part7 {F : FTy → Type} [FloatOps F] (main_arg27 : FVec F S16 .f32) (main_arg28 : FVec F S16 .f32) (main_arg29 : FVec F S64x16 .f32) (main_arg30 : FVec F S16 .f32) (main_arg31 : FVec F S16x2 .f32) (main_arg32 : FVec F S2 .f32) (main_v118 : IVec S_ 1) (main_v119 : FVec F S16 .f32) : IVec S_ 1 :=
  let main_cst_46 : FVec F S_ .f32 := constant S_ .f32 0x7F800000#32
  let main_v120 : FVec F S16 .f32 := broadcastInDim S16 ![] bcast_S_S16 main_cst_46
  let main_v121 : IVec S16 1 := cmpf .olt main_v119 main_v120
  let main_c_47 : IVec S_ 1 := constantI S_ 1 1#1
  let main_v122 : IVec S_ 1 := (fun x v => Host.reduce IntOp.andi x v reducesTo_S16_S_d0 h_S_) main_v121 main_c_47
  let main_v123 : IVec S_ 1 := andi main_v118 main_v122
  let main_v124 : FVec F S16 .f32 := Host.absf main_arg27
  let main_cst_48 : FVec F S_ .f32 := constant S_ .f32 0x7F800000#32
  let main_v125 : FVec F S16 .f32 := broadcastInDim S16 ![] bcast_S_S16 main_cst_48
  let main_v126 : IVec S16 1 := cmpf .olt main_v124 main_v125
  let main_c_49 : IVec S_ 1 := constantI S_ 1 1#1
  let main_v127 : IVec S_ 1 := (fun x v => Host.reduce IntOp.andi x v reducesTo_S16_S_d0 h_S_) main_v126 main_c_49
  let main_v128 : IVec S_ 1 := andi main_v123 main_v127
  let main_v129 : FVec F S16 .f32 := Host.absf main_arg28
  let main_cst_50 : FVec F S_ .f32 := constant S_ .f32 0x7F800000#32
  let main_v130 : FVec F S16 .f32 := broadcastInDim S16 ![] bcast_S_S16 main_cst_50
  let main_v131 : IVec S16 1 := cmpf .olt main_v129 main_v130
  let main_c_51 : IVec S_ 1 := constantI S_ 1 1#1
  let main_v132 : IVec S_ 1 := (fun x v => Host.reduce IntOp.andi x v reducesTo_S16_S_d0 h_S_) main_v131 main_c_51
  let main_v133 : IVec S_ 1 := andi main_v128 main_v132
  let main_v134 : FVec F S64x16 .f32 := Host.absf main_arg29
  let main_cst_52 : FVec F S_ .f32 := constant S_ .f32 0x7F800000#32
  let main_v135 : FVec F S64x16 .f32 := broadcastInDim S64x16 ![] bcast_S_S64x16 main_cst_52
  let main_v136 : IVec S64x16 1 := cmpf .olt main_v134 main_v135
  fn_part8 (F := F) main_arg30 main_arg31 main_arg32 main_v133 main_v136

def fn_part6 {F : FTy → Type} [FloatOps F] (main_arg23 : FVec F S64 .f32) (main_arg24 : FVec F S64 .f32) (main_arg25 : FVec F S16 .f32) (main_arg26 : FVec F S16 .f32) (main_arg27 : FVec F S16 .f32) (main_arg28 : FVec F S16 .f32) (main_arg29 : FVec F S64x16 .f32) (main_arg30 : FVec F S16 .f32) (main_arg31 : FVec F S16x2 .f32) (main_arg32 : FVec F S2 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S16 .f32 := Host.absf main_arg25
  let main_cst_44 : FVec F S_ .f32 := constant S_ .f32 0x7F800000#32
  let main_v115 : FVec F S16 .f32 := broadcastInDim S16 ![] bcast_S_S16 main_cst_44
  let main_v116 : IVec S16 1 := cmpf .olt main_v114 main_v115
  let main_c_45 : IVec S_ 1 := constantI S_ 1 1#1
  let main_v117 : IVec S_ 1 := (fun x v => Host.reduce IntOp.andi x v reducesTo_S16_S_d0 h_S_) main_v116 main_c_45
  let main_v118 : IVec S_ 1 := andi main_v113 main_v117
  let main_v119 : FVec F S16 .f32 := Host.absf main_arg26
  fn_part7 (F := F) main_arg27 main_arg28 main_arg29 main_arg30 main_arg31 main_arg32 main_v118 main_v119

def fn_part5 {F : FTy → Type} [FloatOps F] (main_arg20 : FVec F S32 .f32) (main_arg21 : FVec F S64 .f32) (main_arg22 : FVec F S64 .f32) (main_arg23 : FVec F S64 .f32) (main_arg24 : FVec F S64 .f32) (main_arg25 : FVec F S16 .f32) (main_arg26 : FVec F S16 .f32) (main_arg27 : FVec F S16 .f32) (main_arg28 : FVec F S16 .f32) (main_arg29 : FVec F S64x16 .f32) (main_arg30 : FVec F S16 .f32) (main_arg31 : FVec F S16x2 .f32) (main_arg32 : FVec F S2 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_v98 main_v101 main_c_39

def fn_part4 {F : FTy → Type} [FloatOps F] (main_arg16 : FVec F S16 .f32) (main_arg17 : FVec F S32 .f32) (main_arg18 : FVec F S32 .f32) (main_arg19 : FVec F S32 .f32) (main_arg20 : FVec F S32 .f32) (main_arg21 : FVec F S64 .f32) (main_arg22 : FVec F S64 .f32) (main_arg23 : FVec F S64 .f32) (main_arg24 : FVec F S64 .f32) (main_arg25 : FVec F S16 .f32) (main_arg26 : FVec F S16 .f32) (main_arg27 : FVec F S16 .f32) (main_arg28 : FVec F S16 .f32) (main_arg29 : FVec F S64x16 .f32) (main_arg30 : FVec F S16 .f32) (main_arg31 : FVec F S16x2 .f32) (main_arg32 : FVec F S2 .f32) (main_v63 : IVec S_ 1) (main_v67 : IVec S_ 1) : IVec S_ 1 :=
  let main_v68 : IVec S_ 1 := andi main_v63 main_v67
  let main_v69 : FVec F S16 .f32 := Host.absf main_arg16
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32 .f32 := Host.absf main_arg18
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_v83 main_v84 main_cst_32

def fn_part3 {F : FTy → Type} [FloatOps F] (main_arg13 : FVec F S16 .f32) (main_arg14 : FVec F S16 .f32) (main_arg15 : FVec F S16 .f32) (main_arg16 : FVec F S16 .f32) (main_arg17 : FVec F S32 .f32) (main_arg18 : FVec F S32 .f32) (main_arg19 : FVec F S32 .f32) (main_arg20 : FVec F S32 .f32) (main_arg21 : FVec F S64 .f32) (main_arg22 : FVec F S64 .f32) (main_arg23 : FVec F S64 .f32) (main_arg24 : FVec F S64 .f32) (main_arg25 : FVec F S16 .f32) (main_arg26 : FVec F S16 .f32) (main_arg27 : FVec F S16 .f32) (main_arg28 : FVec F S16 .f32) (main_arg29 : FVec F S64x16 .f32) (main_arg30 : FVec F S16 .f32) (main_arg31 : FVec F S16x2 .f32) (main_arg32 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16 .f32 := Host.absf main_arg14
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16 .f32 := Host.absf main_arg15
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg9 : FVec F S32 .f32) (main_arg10 : FVec F S32x64 .f32) (main_arg11 : FVec F S32x64 .f32) (main_arg12 : FVec F S64 .f32) (main_arg13 : FVec F S16 .f32) (main_arg14 : FVec F S16 .f32) (main_arg15 : FVec F S16 .f32) (main_arg16 : FVec F S16 .f32) (main_arg17 : FVec F S32 .f32) (main_arg18 : FVec F S32 .f32) (main_arg19 : FVec F S32 .f32) (main_arg20 : FVec F S32 .f32) (main_arg21 : FVec F S64 .f32) (main_arg22 : FVec F S64 .f32) (main_arg23 : FVec F S64 .f32) (main_arg24 : FVec F S64 .f32) (main_arg25 : FVec F S16 .f32) (main_arg26 : FVec F S16 .f32) (main_arg27 : FVec F S16 .f32) (main_arg28 : FVec F S16 .f32) (main_arg29 : FVec F S64x16 .f32) (main_arg30 : FVec F S16 .f32) (main_arg31 : FVec F S16x2 .f32) (main_arg32 : FVec F S2 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg10
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32x64 .f32 := Host.absf main_arg11
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg6 : FVec F S16 .f32) (main_arg7 : FVec F S16x32 .f32) (main_arg8 : FVec F S16x32 .f32) (main_arg9 : FVec F S32 .f32) (main_arg10 : FVec F S32x64 .f32) (main_arg11 : FVec F S32x64 .f32) (main_arg12 : FVec F S64 .f32) (main_arg13 : FVec F S16 .f32) (main_arg14 : FVec F S16 .f32) (main_arg15 : FVec F S16 .f32) (main_arg16 : FVec F S16 .f32) (main_arg17 : FVec F S32 .f32) (main_arg18 : FVec F S32 .f32) (main_arg19 : FVec F S32 .f32) (main_arg20 : FVec F S32 .f32) (main_arg21 : FVec F S64 .f32) (main_arg22 : FVec F S64 .f32) (main_arg23 : FVec F S64 .f32) (main_arg24 : FVec F S64 .f32) (main_arg25 : FVec F S16 .f32) (main_arg26 : FVec F S16 .f32) (main_arg27 : FVec F S16 .f32) (main_arg28 : FVec F S16 .f32) (main_arg29 : FVec F S64x16 .f32) (main_arg30 : FVec F S16 .f32) (main_arg31 : FVec F S16x2 .f32) (main_arg32 : FVec F S2 .f32) (main_v13 : IVec S_ 1) (main_v16 : IVec S4x16 1) : IVec S_ 1 :=
  let main_c_5 : IVec S_ 1 := constantI S_ 1 1#1
  let main_v17 : IVec S_ 1 := (fun x v => Host.reduce IntOp.andi x v reducesTo_S4x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x32 .f32 := Host.absf main_arg7
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S16x32 .f32 := Host.absf main_arg8
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : FVec F S100000x4 .f32) (main_arg1 : IVec S2x3200000 32) (main_arg2 : FVec F S3200000 .f32) (main_arg3 : IVec S100000 32) (main_arg4 : FVec F S4x16 .f32) (main_arg5 : FVec F S4x16 .f32) (main_arg6 : FVec F S16 .f32) (main_arg7 : FVec F S16x32 .f32) (main_arg8 : FVec F S16x32 .f32) (main_arg9 : FVec F S32 .f32) (main_arg10 : FVec F S32x64 .f32) (main_arg11 : FVec F S32x64 .f32) (main_arg12 : FVec F S64 .f32) (main_arg13 : FVec F S16 .f32) (main_arg14 : FVec F S16 .f32) (main_arg15 : FVec F S16 .f32) (main_arg16 : FVec F S16 .f32) (main_arg17 : FVec F S32 .f32) (main_arg18 : FVec F S32 .f32) (main_arg19 : FVec F S32 .f32) (main_arg20 : FVec F S32 .f32) (main_arg21 : FVec F S64 .f32) (main_arg22 : FVec F S64 .f32) (main_arg23 : FVec F S64 .f32) (main_arg24 : FVec F S64 .f32) (main_arg25 : FVec F S16 .f32) (main_arg26 : FVec F S16 .f32) (main_arg27 : FVec F S16 .f32) (main_arg28 : FVec F S16 .f32) (main_arg29 : FVec F S64x16 .f32) (main_arg30 : FVec F S16 .f32) (main_arg31 : FVec F S16x2 .f32) (main_arg32 : FVec F S2 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S4x16 .f32 := Host.absf main_arg4
  let main_cst_2 : FVec F S_ .f32 := constant S_ .f32 0x7F800000#32
  let main_v10 : FVec F S4x16 .f32 := broadcastInDim S4x16 ![] bcast_S_S4x16 main_cst_2
  let main_v11 : IVec S4x16 1 := cmpf .olt main_v9 main_v10
  let main_c_3 : IVec S_ 1 := constantI S_ 1 1#1
  let main_v12 : IVec S_ 1 := (fun x v => Host.reduce IntOp.andi x v reducesTo_S4x16_S_d0_1 h_S_) main_v11 main_c_3
  let main_v13 : IVec S_ 1 := andi main_v8 main_v12
  let main_v14 : FVec F S4x16 .f32 := Host.absf main_arg5
  let main_cst_4 : FVec F S_ .f32 := constant S_ .f32 0x7F800000#32
  let main_v15 : FVec F S4x16 .f32 := broadcastInDim S4x16 ![] bcast_S_S4x16 main_cst_4
  let main_v16 : IVec S4x16 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S100000x4 : Shape := ⟨2, ![100000, 4]⟩
abbrev S2x3200000 : Shape := ⟨2, ![2, 3200000]⟩
abbrev S3200000 : Shape := ⟨1, ![3200000]⟩
abbrev S100000 : Shape := ⟨1, ![100000]⟩
abbrev S4x16 : Shape := ⟨2, ![4, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x16 : Shape := ⟨2, ![64, 16]⟩
abbrev S16x2 : Shape := ⟨2, ![16, 2]⟩
abbrev S2 : Shape := ⟨1, ![2]⟩
abbrev S1x3200000 : Shape := ⟨2, ![1, 3200000]⟩
abbrev S_ : Shape := ⟨0, ![]⟩
abbrev S3200000x1 : Shape := ⟨2, ![3200000, 1]⟩
abbrev S3200000x4 : Shape := ⟨2, ![3200000, 4]⟩
abbrev S100000x16 : Shape := ⟨2, ![100000, 16]⟩
abbrev S10000x4 : Shape := ⟨2, ![10000, 4]⟩
abbrev S10000x16 : Shape := ⟨2, ![10000, 16]⟩
abbrev S1x16 : Shape := ⟨2, ![1, 16]⟩
abbrev S3200000x16 : Shape := ⟨2, ![3200000, 16]⟩
abbrev S100000x32 : Shape := ⟨2, ![100000, 32]⟩
abbrev S10000x32 : Shape := ⟨2, ![10000, 32]⟩
abbrev S1x32 : Shape := ⟨2, ![1, 32]⟩
abbrev S3200000x32 : Shape := ⟨2, ![3200000, 32]⟩
abbrev S100000x64 : Shape := ⟨2, ![100000, 64]⟩
abbrev S10000x64 : Shape := ⟨2, ![10000, 64]⟩
abbrev S1x64 : Shape := ⟨2, ![1, 64]⟩
abbrev S100x64 : Shape := ⟨2, ![100, 64]⟩
abbrev S100000x1 : Shape := ⟨2, ![100000, 1]⟩
abbrev S100 : Shape := ⟨1, ![100]⟩
abbrev S100x1 : Shape := ⟨2, ![100, 1]⟩
abbrev S100x16 : Shape := ⟨2, ![100, 16]⟩
abbrev S100x2 : Shape := ⟨2, ![100, 2]⟩
abbrev S1x2 : Shape := ⟨2, ![1, 2]⟩

abbrev nBuf : Space → Nat
  | .hbm => 144
  | .vmem => 39
  | .smem => 0
  | _ => 0

abbrev hbmTy0_0 (i : Nat) : BufTy := match i % 128 with
  | 0 => ⟨S100000x4, .f32⟩
  | 1 => ⟨S2x3200000, .i32⟩
  | 2 => ⟨S3200000, .f32⟩
  | 3 => ⟨S100000, .i32⟩
  | 4 => ⟨S4x16, .f32⟩
  | 5 => ⟨S4x16, .f32⟩
  | 6 => ⟨S16, .f32⟩
  | 7 => ⟨S16x32, .f32⟩
  | 8 => ⟨S16x32, .f32⟩
  | 9 => ⟨S32, .f32⟩
  | 10 => ⟨S32x64, .f32⟩
  | 11 => ⟨S32x64, .f32⟩
  | 12 => ⟨S64, .f32⟩
  | 13 => ⟨S16, .f32⟩
  | 14 => ⟨S16, .f32⟩
  | 15 => ⟨S16, .f32⟩
  | 16 => ⟨S16, .f32⟩
  | 17 => ⟨S32, .f32⟩
  | 18 => ⟨S32, .f32⟩
  | 19 => ⟨S32, .f32⟩
  | 20 => ⟨S32, .f32⟩
  | 21 => ⟨S64, .f32⟩
  | 22 => ⟨S64, .f32⟩
  | 23 => ⟨S64, .f32⟩
  | 24 => ⟨S64, .f32⟩
  | 25 => ⟨S16, .f32⟩
  | 26 => ⟨S16, .f32⟩
  | 27 => ⟨S16, .f32⟩
  | 28 => ⟨S16, .f32⟩
  | 29 => ⟨S64x16, .f32⟩
  | 30 => ⟨S16, .f32⟩
  | 31 => ⟨S16x2, .f32⟩
  | 32 => ⟨S2, .f32⟩
  | 33 => ⟨S1x3200000, .i32⟩
  | 34 => ⟨S3200000, .i32⟩
  | 35 => ⟨S1x3200000, .i32⟩
  | 36 => ⟨S3200000, .i32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000x4, .f32⟩
  | 46 => ⟨S3200000x1, .f32⟩
  | 47 => ⟨S3200000x4, .f32⟩
  | 48 => ⟨S3200000x4, .f32⟩
  | 49 => ⟨S_, .f32⟩
  | 50 => ⟨S100000x4, .f32⟩
  | 51 => ⟨S3200000x1, .i32⟩
  | 52 => ⟨S100000x4, .f32⟩
  | 53 => ⟨S100000x16, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000x16, .f32⟩
  | 63 => ⟨S3200000x1, .f32⟩
  | 64 => ⟨S3200000x16, .f32⟩
  | 65 => ⟨S3200000x16, .f32⟩
  | 66 => ⟨S_, .f32⟩
  | 67 => ⟨S100000x16, .f32⟩
  | 68 => ⟨S3200000x1, .i32⟩
  | 69 => ⟨S100000x16, .f32⟩
  | 70 => ⟨S100000x32, .f32⟩
  | 71 => ⟨S_, .i32⟩
  | 72 => ⟨S3200000, .i32⟩
  | 73 => ⟨S3200000, .i1⟩
  | 74 => ⟨S_, .i32⟩
  | 75 => ⟨S3200000, .i32⟩
  | 76 => ⟨S3200000, .i32⟩
  | 77 => ⟨S3200000, .i32⟩
  | 78 => ⟨S3200000x1, .i32⟩
  | 79 => ⟨S3200000x32, .f32⟩
  | 80 => ⟨S3200000x1, .f32⟩
  | 81 => ⟨S3200000x32, .f32⟩
  | 82 => ⟨S3200000x32, .f32⟩
  | 83 => ⟨S_, .f32⟩
  | 84 => ⟨S100000x32, .f32⟩
  | 85 => ⟨S3200000x1, .i32⟩
  | 86 => ⟨S100000x32, .f32⟩
  | 87 => ⟨S100000x64, .f32⟩
  | 88 => ⟨S_, .f32⟩
  | 89 => ⟨S100x64, .f32⟩
  | 90 => ⟨S100000x1, .i32⟩
  | 91 => ⟨S100x64, .f32⟩
  | 92 => ⟨S_, .f32⟩
  | 93 => ⟨S100000, .f32⟩
  | 94 => ⟨S_, .f32⟩
  | 95 => ⟨S100, .f32⟩
  | 96 => ⟨S100000x1, .i32⟩
  | 97 => ⟨S100, .f32⟩
  | 98 => ⟨S_, .f32⟩
  | 99 => ⟨S100, .f32⟩
  | 100 => ⟨S100, .f32⟩
  | 101 => ⟨S100x1, .f32⟩
  | 102 => ⟨S100x64, .f32⟩
  | 103 => ⟨S100x64, .f32⟩
  | 104 => ⟨S100x16, .f32⟩
  | 105 => ⟨S1x16, .f32⟩
  | 106 => ⟨S100x16, .f32⟩
  | 107 => ⟨S100x16, .f32⟩
  | 108 => ⟨S_, .f32⟩
  | 109 => ⟨S16, .f32⟩
  | 110 => ⟨S16, .f32⟩
  | 111 => ⟨S16, .f32⟩
  | 112 => ⟨S1x16, .f32⟩
  | 113 => ⟨S100x16, .f32⟩
  | 114 => ⟨S100x16, .f32⟩
  | 115 => ⟨S16, .f32⟩
  | 116 => ⟨S1x16, .f32⟩
  | 117 => ⟨S100x16, .f32⟩
  | 118 => ⟨S100x16, .f32⟩
  | 119 => ⟨S1x16, .f32⟩
  | 120 => ⟨S100x16, .f32⟩
  | 121 => ⟨S100x16, .f32⟩
  | 122 => ⟨S_, .f32⟩
  | 123 => ⟨S100x16, .f32⟩
  | 124 => ⟨S100x16, .f32⟩
  | 125 => ⟨S100x2, .f32⟩
  | 126 => ⟨S1x2, .f32⟩
  | 127 => ⟨S100x2, .f32⟩
  | _ => ⟨S100000x4, .f32⟩

abbrev hbmTy0_1 (i : Nat) : BufTy := match i % 128 with
  | 0 => ⟨S100x2, .f32⟩
  | 1 => ⟨S_, .f32⟩
  | 2 => ⟨S100, .f32⟩
  | 3 => ⟨S_, .f32⟩
  | 4 => ⟨S100, .f32⟩
  | 5 => ⟨S100, .f32⟩
  | 6 => ⟨S100x1, .f32⟩
  | 7 => ⟨S100x2, .f32⟩
  | 8 => ⟨S100x2, .f32⟩
  | 9 => ⟨S100x2, .f32⟩
  | 10 => ⟨S_, .f32⟩
  | 11 => ⟨S100, .f32⟩
  | 12 => ⟨S100x1, .f32⟩
  | 13 => ⟨S100x1, .f32⟩
  | 14 => ⟨S100x2, .f32⟩
  | 15 => ⟨S100x2, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S10000x4, .f32⟩
  | .local _ .vmem, ⟨1, _⟩ => ⟨S10000x4, .f32⟩
  | .local _ .vmem, ⟨2, _⟩ => ⟨S10000x4, .f32⟩
  | .local _ .vmem, ⟨3, _⟩ => ⟨S10000x4, .f32⟩
  | .local _ .vmem, ⟨4, _⟩ => ⟨S4x16, .f32⟩
  | .local _ .vmem, ⟨5, _⟩ => ⟨S4x16, .f32⟩
  | .local _ .vmem, ⟨6, _⟩ => ⟨S16, .f32⟩
  | .local _ .vmem, ⟨7, _⟩ => ⟨S16, .f32⟩
  | .local _ .vmem, ⟨8, _⟩ => ⟨S16, .f32⟩
  | .local _ .vmem, ⟨9, _⟩ => ⟨S16, .f32⟩
  | .local _ .vmem, ⟨10, _⟩ => ⟨S16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S16x32, .f32⟩
  | .local _ .vmem, ⟨18, _⟩ => ⟨S16x32, .f32⟩
  | .local _ .vmem, ⟨19, _⟩ => ⟨S32, .f32⟩
  | .local _ .vmem, ⟨20, _⟩ => ⟨S32, .f32⟩
  | .local _ .vmem, ⟨21, _⟩ => ⟨S32, .f32⟩
  | .local _ .vmem, ⟨22, _⟩ => ⟨S32, .f32⟩
  | .local _ .vmem, ⟨23, _⟩ => ⟨S32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S32x64, .f32⟩
  | .local _ .vmem, ⟨31, _⟩ => ⟨S32x64, .f32⟩
  | .local _ .vmem, ⟨32, _⟩ => ⟨S64, .f32⟩
  | .local _ .vmem, ⟨33, _⟩ => ⟨S64, .f32⟩
  | .local _ .vmem, ⟨34, _⟩ => ⟨S64, .f32⟩
  | .local _ .vmem, ⟨35, _⟩ => ⟨S64, .f32⟩
  | .local _ .vmem, ⟨36, _⟩ => ⟨S64, .f32⟩
  | .local _ .vmem, ⟨37, _⟩ => ⟨S10000x64, .f32⟩
  | .local _ .vmem, ⟨38, _⟩ => ⟨S10000x64, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_c : Ref sig .tc := ⟨.hbm, 37, rfl⟩
abbrev main_v4 : Ref sig .tc := ⟨.hbm, 38, rfl⟩
abbrev main_v5 : Ref sig .tc := ⟨.hbm, 39, rfl⟩
abbrev main_c_0 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_c_1 : Ref sig .tc := ⟨.hbm, 54, rfl⟩
abbrev main_v18 : Ref sig .tc := ⟨.hbm, 55, rfl⟩
abbrev main_v19 : Ref sig .tc := ⟨.hbm, 56, rfl⟩
abbrev main_c_2 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_3 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_c_4 : Ref sig .tc := ⟨.hbm, 71, rfl⟩
abbrev main_v32 : Ref sig .tc := ⟨.hbm, 72, rfl⟩
abbrev main_v33 : Ref sig .tc := ⟨.hbm, 73, rfl⟩
abbrev main_c_5 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_6 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_7 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_8 : Ref sig .tc := ⟨.hbm, 92, rfl⟩
abbrev main_v49 : Ref sig .tc := ⟨.hbm, 93, rfl⟩
abbrev main_cst_9 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_10 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_11 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_call0_cst : Ref sig .tc := ⟨.hbm, 122, rfl⟩
abbrev main_call0_v0 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call1_cst : Ref sig .tc := ⟨.hbm, 129, rfl⟩
abbrev main_call1_v0 : Ref sig .tc := ⟨.hbm, 130, rfl⟩
abbrev main_call1_cst_0 : Ref sig .tc := ⟨.hbm, 131, rfl⟩
abbrev main_call1_v1 : Ref sig .tc := ⟨.hbm, 132, rfl⟩
abbrev main_call1_v2 : Ref sig .tc := ⟨.hbm, 133, rfl⟩
abbrev main_call1_v3 : Ref sig .tc := ⟨.hbm, 134, rfl⟩
abbrev main_call1_v4 : Ref sig .tc := ⟨.hbm, 135, rfl⟩
abbrev main_call1_v5 : Ref sig .tc := ⟨.hbm, 136, rfl⟩
abbrev main_call1_v6 : Ref sig .tc := ⟨.hbm, 137, rfl⟩
abbrev main_call1_cst_1 : Ref sig .tc := ⟨.hbm, 138, rfl⟩
abbrev main_call1_v7 : Ref sig .tc := ⟨.hbm, 139, rfl⟩
abbrev main_call1_v8 : Ref sig .tc := ⟨.hbm, 140, rfl⟩
abbrev main_call1_v9 : Ref sig .tc := ⟨.hbm, 141, rfl⟩
abbrev main_call1_v10 : Ref sig .tc := ⟨.hbm, 142, rfl⟩
abbrev main_v80 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S10000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x4_0_1 : S3200000x1.BroadcastsInDim S3200000x4 (![0, 1] : Fin 2 → Fin S3200000x4.rank)
  bcast_S_S100000x4 : S_.BroadcastsInDim S100000x4 (![] : Fin 0 → Fin S100000x4.rank)
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  inb_S4x16_S4x16_0_0 : ∀ a, (![0, 0] : Fin 2 → Nat) a + S4x16.size a ≤ S4x16.size a
  h_S4x16 : 0 < S4x16.numel
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S10000x16_S10000x16 : S10000x16.ShapeCasts S10000x16
  inb_S16x32_S16x32_0_0 : ∀ a, (![0, 0] : Fin 2 → Nat) a + S16x32.size a ≤ S16x32.size a
  h_S16x32 : 0 < S16x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100x64 : S_.BroadcastsInDim S100x64 (![] : Fin 0 → Fin S100x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S100 : S_.BroadcastsInDim S100 (![] : Fin 0 → Fin S100.rank)
  bcast_S100_S100x1_0 : S100.BroadcastsInDim S100x1 (![0] : Fin 1 → Fin S100x1.rank)
  bcast_S100x1_S100x64_0_1 : S100x1.BroadcastsInDim S100x64 (![0, 1] : Fin 2 → Fin S100x64.rank)
  bcast_S16_S1x16_1 : S16.BroadcastsInDim S1x16 (![1] : Fin 1 → Fin S1x16.rank)
  bcast_S1x16_S100x16_0_1 : S1x16.BroadcastsInDim S100x16 (![0, 1] : Fin 2 → Fin S100x16.rank)
  bcast_S_S16 : S_.BroadcastsInDim S16 (![] : Fin 0 → Fin S16.rank)
  bcast_S_S100x16 : S_.BroadcastsInDim S100x16 (![] : Fin 0 → Fin S100x16.rank)
  bcast_S2_S1x2_1 : S2.BroadcastsInDim S1x2 (![1] : Fin 1 → Fin S1x2.rank)
  bcast_S1x2_S100x2_0_1 : S1x2.BroadcastsInDim S100x2 (![0, 1] : Fin 2 → Fin S100x2.rank)
  reducesTo_S100x2_S100_d1 : S100x2.ReducesTo [1] S100
  h_S_ : 0 < S_.numel
  bcast_S100x1_S100x2_0_1 : S100x1.BroadcastsInDim S100x2 (![0, 1] : Fin 2 → Fin S100x2.rank)
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S10000x4_S4x16_S10000x16_1_0_0_1_n_n_wf : DotDims.WF S10000x4 S4x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x32_S10000x32_1_0_0_1_n_n_wf : DotDims.WF S10000x16 S16x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x64_S10000x64_1_0_0_1_n_n_wf : DotDims.WF S10000x32 S32x64 S10000x64 [1] [0] [0] [1] [] []
  scatter_S100x64_S100000x1_S100000x64_1_0_0_1_wf : ScatterDims.WF S100x64 S100000x1 S100000x64 [1] [0] [0] 1
  scatter_S100_S100000x1_S100000_n_0_0_1_wf : ScatterDims.WF S100 S100000x1 S100000 [] [0] [0] 1
  dot_S100x64_S64x16_S100x16_1_0_0_1_n_n_wf : DotDims.WF S100x64 S64x16 S100x16 [1] [0] [0] [1] [] []
  dot_S100x16_S16x2_S100x2_1_0_0_1_n_n_wf : DotDims.WF S100x16 S16x2 S100x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x4.size a ≤ S100000x4.size a
  hwx0_1 : ∀ i : grid0.Coords, EltTy.bits .f32 = 32 ∨ (Rect.block (s := S100000x4) S10000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x16.size a ≤ S4x16.size a
  hwx0_2 : ∀ i : grid0.Coords, EltTy.bits .f32 = 32 ∨ (Rect.block (s := S4x16) S4x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x16.size a ≤ S4x16.size a
  hwx0_3 : ∀ i : grid0.Coords, EltTy.bits .f32 = 32 ∨ (Rect.block (s := S4x16) S4x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x16.size a ≤ S100000x16.size a
  hwx0_9 : ∀ i : grid0.Coords, EltTy.bits .f32 = 32 ∨ (Rect.block (s := S100000x16) S10000x16.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x32.size a ≤ S16x32.size a
  hwx1_3 : ∀ i : grid1.Coords, EltTy.bits .f32 = 32 ∨ (Rect.block (s := S16x32) S16x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32.size a ≤ S32.size a
  hwx1_5 : ∀ i : grid1.Coords, EltTy.bits .f32 = 32 ∨ (Rect.block (s := S32) S32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32.size a ≤ S32.size a
  hwx1_7 : ∀ i : grid1.Coords, EltTy.bits .f32 = 32 ∨ (Rect.block (s := S32) S32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32.size a ≤ S32.size a
  hwx1_8 : ∀ i : grid1.Coords, EltTy.bits .f32 = 32 ∨ (Rect.block (s := S32) S32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x32.size a ≤ S100000x32.size a
  hwx1_9 : ∀ i : grid1.Coords, EltTy.bits .f32 = 32 ∨ (Rect.block (s := S100000x32) S10000x32.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64.size a ≤ S64.size a
  hwx2_8 : ∀ i : grid2.Coords, EltTy.bits .f32 = 32 ∨ (Rect.block (s := S64) S64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S10000x64.size a ≤ S100000x64.size a
  hwx2_9 : ∀ i : grid2.Coords, EltTy.bits .f32 = 32 ∨ (Rect.block (s := S100000x64) S10000x64.size (cc2_transform_9 i) (hinb2_9 i)).WholeWords (EltTy.packing .f32)

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S10000x4_S4x16_S10000x16_1_0_0_1_n_n : DotDims S10000x4 S4x16 S10000x16 where
  lhsContracting := [1]
  rhsContracting := [0]
  lhsNonContracting := [0]
  rhsNonContracting := [1]
  lhsBatch := []
  rhsBatch := []
  wf := dot_S10000x4_S4x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def scatter_S100x64_S100000x1_S100000x64_1_0_0_1 : ScatterDims S100x64 S100000x1 S100000x64 where
  updateWindowDims := [1]
  insertedWindowDims := [0]
  scatterDimsToOperandDims := [0]
  indexVectorDim := 1
  wf := scatter_S100x64_S100000x1_S100000x64_1_0_0_1_wf
def scatter_S100_S100000x1_S100000_n_0_0_1 : ScatterDims S100 S100000x1 S100000 where
  updateWindowDims := []
  insertedWindowDims := [0]
  scatterDimsToOperandDims := [0]
  indexVectorDim := 1
  wf := scatter_S100_S100000x1_S100000_n_0_0_1_wf
def dot_S100x64_S64x16_S100x16_1_0_0_1_n_n : DotDims S100x64 S64x16 S100x16 where
  lhsContracting := [1]
  rhsContracting := [0]
  lhsNonContracting := [0]
  rhsNonContracting := [1]
  lhsBatch := []
  rhsBatch := []
  wf := dot_S100x64_S64x16_S100x16_1_0_0_1_n_n_wf
def dot_S100x16_S16x2_S100x2_1_0_0_1_n_n : DotDims S100x16 S16x2 S100x2 where
  lhsContracting := [1]
  rhsContracting := [0]
  lhsNonContracting := [0]
  rhsNonContracting := [1]
  lhsBatch := []
  rhsBatch := []
  wf := dot_S100x16_S16x2_S100x2_1_0_0_1_n_n_wf

abbrev win0_0 : Pipeline.Window sig grid0 :=
  Pipeline.Window.ofSpec (Memref.whole main_v16) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S4x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg15) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg16) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S10000x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v30) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S16x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg17) S32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg18) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg19) S32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg20) S32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S10000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v44) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg21) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg22) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg23) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg24) S64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v45) S10000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S3200000 : Shape := ⟨1, ![3200000]⟩
abbrev S100000 : Shape := ⟨1, ![100000]⟩
abbrev S4x16 : Shape := ⟨2, ![4, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x16 : Shape := ⟨2, ![64, 16]⟩
abbrev S16x2 : Shape := ⟨2, ![16, 2]⟩
abbrev S2 : Shape := ⟨1, ![2]⟩
abbrev S1x3200000 : Shape := ⟨2, ![1, 3200000]⟩
abbrev S_ : Shape := ⟨0, ![]⟩
abbrev S3200000x1 : Shape := ⟨2, ![3200000, 1]⟩
abbrev S3200000x4 : Shape := ⟨2, ![3200000, 4]⟩
abbrev S100000x16 : Shape := ⟨2, ![100000, 16]⟩
abbrev S1x16 : Shape := ⟨2, ![1, 16]⟩
abbrev S3200000x16 : Shape := ⟨2, ![3200000, 16]⟩
abbrev S100000x32 : Shape := ⟨2, ![100000, 32]⟩
abbrev S1x32 : Shape := ⟨2, ![1, 32]⟩
abbrev S3200000x32 : Shape := ⟨2, ![3200000, 32]⟩
abbrev S100000x64 : Shape := ⟨2, ![100000, 64]⟩
abbrev S1x64 : Shape := ⟨2, ![1, 64]⟩
abbrev S100x64 : Shape := ⟨2, ![100, 64]⟩
abbrev S100000x1 : Shape := ⟨2, ![100000, 1]⟩
abbrev S100 : Shape := ⟨1, ![100]⟩
abbrev S100x1 : Shape := ⟨2, ![100, 1]⟩
abbrev S100x16 : Shape := ⟨2, ![100, 16]⟩
abbrev S100x2 : Shape := ⟨2, ![100, 2]⟩
abbrev S1x2 : Shape := ⟨2, ![1, 2]⟩

abbrev nBuf : Space → Nat
  | .hbm => 210
  | .vmem => 0
  | .smem => 0
  | _ => 0

abbrev hbmTy0_0 (i : Nat) : BufTy := match i % 128 with
  | 0 => ⟨S100000x4, .f32⟩
  | 1 => ⟨S2x3200000, .i32⟩
  | 2 => ⟨S3200000, .f32⟩
  | 3 => ⟨S100000, .i32⟩
  | 4 => ⟨S4x16, .f32⟩
  | 5 => ⟨S4x16, .f32⟩
  | 6 => ⟨S16, .f32⟩
  | 7 => ⟨S16x32, .f32⟩
  | 8 => ⟨S16x32, .f32⟩
  | 9 => ⟨S32, .f32⟩
  | 10 => ⟨S32x64, .f32⟩
  | 11 => ⟨S32x64, .f32⟩
  | 12 => ⟨S64, .f32⟩
  | 13 => ⟨S16, .f32⟩
  | 14 => ⟨S16, .f32⟩
  | 15 => ⟨S16, .f32⟩
  | 16 => ⟨S16, .f32⟩
  | 17 => ⟨S32, .f32⟩
  | 18 => ⟨S32, .f32⟩
  | 19 => ⟨S32, .f32⟩
  | 20 => ⟨S32, .f32⟩
  | 21 => ⟨S64, .f32⟩
  | 22 => ⟨S64, .f32⟩
  | 23 => ⟨S64, .f32⟩
  | 24 => ⟨S64, .f32⟩
  | 25 => ⟨S16, .f32⟩
  | 26 => ⟨S16, .f32⟩
  | 27 => ⟨S16, .f32⟩
  | 28 => ⟨S16, .f32⟩
  | 29 => ⟨S64x16, .f32⟩
  | 30 => ⟨S16, .f32⟩
  | 31 => ⟨S16x2, .f32⟩
  | 32 => ⟨S2, .f32⟩
  | 33 => ⟨S1x3200000, .i32⟩
  | 34 => ⟨S3200000, .i32⟩
  | 35 => ⟨S1x3200000, .i32⟩
  | 36 => ⟨S3200000, .i32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000x4, .f32⟩
  | 46 => ⟨S3200000x1, .f32⟩
  | 47 => ⟨S3200000x4, .f32⟩
  | 48 => ⟨S3200000x4, .f32⟩
  | 49 => ⟨S_, .f32⟩
  | 50 => ⟨S100000x4, .f32⟩
  | 51 => ⟨S3200000x1, .i32⟩
  | 52 => ⟨S100000x4, .f32⟩
  | 53 => ⟨S100000x16, .f32⟩
  | 54 => ⟨S1x16, .f32⟩
  | 55 => ⟨S100000x16, .f32⟩
  | 56 => ⟨S100000x16, .f32⟩
  | 57 => ⟨S100000x16, .f32⟩
  | 58 => ⟨S100000x16, .f32⟩
  | 59 => ⟨S1x16, .f32⟩
  | 60 => ⟨S100000x16, .f32⟩
  | 61 => ⟨S100000x16, .f32⟩
  | 62 => ⟨S_, .f32⟩
  | 63 => ⟨S16, .f32⟩
  | 64 => ⟨S16, .f32⟩
  | 65 => ⟨S16, .f32⟩
  | 66 => ⟨S16, .f32⟩
  | 67 => ⟨S1x16, .f32⟩
  | 68 => ⟨S100000x16, .f32⟩
  | 69 => ⟨S100000x16, .f32⟩
  | 70 => ⟨S1x16, .f32⟩
  | 71 => ⟨S100000x16, .f32⟩
  | 72 => ⟨S100000x16, .f32⟩
  | 73 => ⟨S_, .f32⟩
  | 74 => ⟨S100000x16, .f32⟩
  | 75 => ⟨S100000x16, .f32⟩
  | 76 => ⟨S_, .i32⟩
  | 77 => ⟨S3200000, .i32⟩
  | 78 => ⟨S3200000, .i1⟩
  | 79 => ⟨S_, .i32⟩
  | 80 => ⟨S3200000, .i32⟩
  | 81 => ⟨S3200000, .i32⟩
  | 82 => ⟨S3200000, .i32⟩
  | 83 => ⟨S3200000x1, .i32⟩
  | 84 => ⟨S3200000x16, .f32⟩
  | 85 => ⟨S3200000x1, .f32⟩
  | 86 => ⟨S3200000x16, .f32⟩
  | 87 => ⟨S3200000x16, .f32⟩
  | 88 => ⟨S_, .f32⟩
  | 89 => ⟨S100000x16, .f32⟩
  | 90 => ⟨S3200000x1, .i32⟩
  | 91 => ⟨S100000x16, .f32⟩
  | 92 => ⟨S100000x32, .f32⟩
  | 93 => ⟨S1x32, .f32⟩
  | 94 => ⟨S100000x32, .f32⟩
  | 95 => ⟨S100000x32, .f32⟩
  | 96 => ⟨S100000x32, .f32⟩
  | 97 => ⟨S100000x32, .f32⟩
  | 98 => ⟨S1x32, .f32⟩
  | 99 => ⟨S100000x32, .f32⟩
  | 100 => ⟨S100000x32, .f32⟩
  | 101 => ⟨S_, .f32⟩
  | 102 => ⟨S32, .f32⟩
  | 103 => ⟨S32, .f32⟩
  | 104 => ⟨S32, .f32⟩
  | 105 => ⟨S32, .f32⟩
  | 106 => ⟨S1x32, .f32⟩
  | 107 => ⟨S100000x32, .f32⟩
  | 108 => ⟨S100000x32, .f32⟩
  | 109 => ⟨S1x32, .f32⟩
  | 110 => ⟨S100000x32, .f32⟩
  | 111 => ⟨S100000x32, .f32⟩
  | 112 => ⟨S_, .f32⟩
  | 113 => ⟨S100000x32, .f32⟩
  | 114 => ⟨S100000x32, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000x32, .f32⟩
  | 124 => ⟨S3200000x1, .f32⟩
  | 125 => ⟨S3200000x32, .f32⟩
  | 126 => ⟨S3200000x32, .f32⟩
  | 127 => ⟨S_, .f32⟩
  | _ => ⟨S100000x4, .f32⟩

abbrev hbmTy0_1 (i : Nat) : BufTy := match i % 128 with
  | 0 => ⟨S100000x32, .f32⟩
  | 1 => ⟨S3200000x1, .i32⟩
  | 2 => ⟨S100000x32, .f32⟩
  | 3 => ⟨S100000x64, .f32⟩
  | 4 => ⟨S1x64, .f32⟩
  | 5 => ⟨S100000x64, .f32⟩
  | 6 => ⟨S100000x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S64, .f32⟩
  | 14 => ⟨S64, .f32⟩
  | 15 => ⟨S64, .f32⟩
  | 16 => ⟨S64, .f32⟩
  | 17 => ⟨S1x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S_, .f32⟩
  | 27 => ⟨S100x64, .f32⟩
  | 28 => ⟨S100000x1, .i32⟩
  | 29 => ⟨S100x64, .f32⟩
  | 30 => ⟨S_, .f32⟩
  | 31 => ⟨S100000, .f32⟩
  | 32 => ⟨S_, .f32⟩
  | 33 => ⟨S100, .f32⟩
  | 34 => ⟨S100000x1, .i32⟩
  | 35 => ⟨S100, .f32⟩
  | 36 => ⟨S_, .f32⟩
  | 37 => ⟨S100, .f32⟩
  | 38 => ⟨S100, .f32⟩
  | 39 => ⟨S100x1, .f32⟩
  | 40 => ⟨S100x64, .f32⟩
  | 41 => ⟨S100x64, .f32⟩
  | 42 => ⟨S100x16, .f32⟩
  | 43 => ⟨S1x16, .f32⟩
  | 44 => ⟨S100x16, .f32⟩
  | 45 => ⟨S100x16, .f32⟩
  | 46 => ⟨S1x16, .f32⟩
  | 47 => ⟨S100x16, .f32⟩
  | 48 => ⟨S100x16, .f32⟩
  | 49 => ⟨S_, .f32⟩
  | 50 => ⟨S16, .f32⟩
  | 51 => ⟨S16, .f32⟩
  | 52 => ⟨S16, .f32⟩
  | 53 => ⟨S16, .f32⟩
  | 54 => ⟨S1x16, .f32⟩
  | 55 => ⟨S100x16, .f32⟩
  | 56 => ⟨S100x16, .f32⟩
  | 57 => ⟨S1x16, .f32⟩
  | 58 => ⟨S100x16, .f32⟩
  | 59 => ⟨S100x16, .f32⟩
  | 60 => ⟨S_, .f32⟩
  | 61 => ⟨S100x16, .f32⟩
  | 62 => ⟨S100x16, .f32⟩
  | 63 => ⟨S100x2, .f32⟩
  | 64 => ⟨S1x2, .f32⟩
  | 65 => ⟨S100x2, .f32⟩
  | 66 => ⟨S100x2, .f32⟩
  | 67 => ⟨S_, .f32⟩
  | 68 => ⟨S100, .f32⟩
  | 69 => ⟨S_, .f32⟩
  | 70 => ⟨S100, .f32⟩
  | 71 => ⟨S100, .f32⟩
  | 72 => ⟨S100x1, .f32⟩
  | 73 => ⟨S100x2, .f32⟩
  | 74 => ⟨S100x2, .f32⟩
  | 75 => ⟨S100x2, .f32⟩
  | 76 => ⟨S_, .f32⟩
  | 77 => ⟨S100, .f32⟩
  | 78 => ⟨S100x1, .f32⟩
  | 79 => ⟨S100x1, .f32⟩
  | 80 => ⟨S100x2, .f32⟩
  | 81 => ⟨S100x2, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_c : Ref sig .tc := ⟨.hbm, 37, rfl⟩
abbrev main_v4 : Ref sig .tc := ⟨.hbm, 38, rfl⟩
abbrev main_v5 : Ref sig .tc := ⟨.hbm, 39, rfl⟩
abbrev main_c_0 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_1 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_call0_cst : Ref sig .tc := ⟨.hbm, 73, rfl⟩
abbrev main_call0_v0 : Ref sig .tc := ⟨.hbm, 74, rfl⟩
abbrev main_v36 : Ref sig .tc := ⟨.hbm, 75, rfl⟩
abbrev main_c_2 : Ref sig .tc := ⟨.hbm, 76, rfl⟩
abbrev main_v37 : Ref sig .tc := ⟨.hbm, 77, rfl⟩
abbrev main_v38 : Ref sig .tc := ⟨.hbm, 78, rfl⟩
abbrev main_c_3 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_4 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_5 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_call1_cst : Ref sig .tc := ⟨.hbm, 112, rfl⟩
abbrev main_call1_v0 : Ref sig .tc := ⟨.hbm, 113, rfl⟩
abbrev main_v69 : Ref sig .tc := ⟨.hbm, 114, rfl⟩
abbrev main_c_6 : Ref sig .tc := ⟨.hbm, 115, rfl⟩
abbrev main_v70 : Ref sig .tc := ⟨.hbm, 116, rfl⟩
abbrev main_v71 : Ref sig .tc := ⟨.hbm, 117, rfl⟩
abbrev main_c_7 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_8 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_9 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_call2_cst : Ref sig .tc := ⟨.hbm, 151, rfl⟩
abbrev main_call2_v0 : Ref sig .tc := ⟨.hbm, 152, rfl⟩
abbrev main_v102 : Ref sig .tc := ⟨.hbm, 153, rfl⟩
abbrev main_cst_10 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_11 : Ref sig .tc := ⟨.hbm, 158, rfl⟩
abbrev main_v106 : Ref sig .tc := ⟨.hbm, 159, rfl⟩
abbrev main_cst_12 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_13 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_14 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_call3_cst : Ref sig .tc := ⟨.hbm, 188, rfl⟩
abbrev main_call3_v0 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_call4_cst : Ref sig .tc := ⟨.hbm, 195, rfl⟩
abbrev main_call4_v0 : Ref sig .tc := ⟨.hbm, 196, rfl⟩
abbrev main_call4_cst_0 : Ref sig .tc := ⟨.hbm, 197, rfl⟩
abbrev main_call4_v1 : Ref sig .tc := ⟨.hbm, 198, rfl⟩
abbrev main_call4_v2 : Ref sig .tc := ⟨.hbm, 199, rfl⟩
abbrev main_call4_v3 : Ref sig .tc := ⟨.hbm, 200, rfl⟩
abbrev main_call4_v4 : Ref sig .tc := ⟨.hbm, 201, rfl⟩
abbrev main_call4_v5 : Ref sig .tc := ⟨.hbm, 202, rfl⟩
abbrev main_call4_v6 : Ref sig .tc := ⟨.hbm, 203, rfl⟩
abbrev main_call4_cst_1 : Ref sig .tc := ⟨.hbm, 204, rfl⟩
abbrev main_call4_v7 : Ref sig .tc := ⟨.hbm, 205, rfl⟩
abbrev main_call4_v8 : Ref sig .tc := ⟨.hbm, 206, rfl⟩
abbrev main_call4_v9 : Ref sig .tc := ⟨.hbm, 207, rfl⟩
abbrev main_call4_v10 : Ref sig .tc := ⟨.hbm, 208, rfl⟩
abbrev main_v137 : Ref sig .tc := ⟨.hbm, 209, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x4_0_1 : S3200000x1.BroadcastsInDim S3200000x4 (![0, 1] : Fin 2 → Fin S3200000x4.rank)
  bcast_S_S100000x4 : S_.BroadcastsInDim S100000x4 (![] : Fin 0 → Fin S100000x4.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S16 : S_.BroadcastsInDim S16 (![] : Fin 0 → Fin S16.rank)
  bcast_S_S100000x16 : S_.BroadcastsInDim S100000x16 (![] : Fin 0 → Fin S100000x16.rank)
  bcast_S3200000x1_S3200000x16_0_1 : S3200000x1.BroadcastsInDim S3200000x16 (![0, 1] : Fin 2 → Fin S3200000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S32 : S_.BroadcastsInDim S32 (![] : Fin 0 → Fin S32.rank)
  bcast_S_S100000x32 : S_.BroadcastsInDim S100000x32 (![] : Fin 0 → Fin S100000x32.rank)
  bcast_S3200000x1_S3200000x32_0_1 : S3200000x1.BroadcastsInDim S3200000x32 (![0, 1] : Fin 2 → Fin S3200000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x64 : S_.BroadcastsInDim S100000x64 (![] : Fin 0 → Fin S100000x64.rank)
  bcast_S_S100x64 : S_.BroadcastsInDim S100x64 (![] : Fin 0 → Fin S100x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S100 : S_.BroadcastsInDim S100 (![] : Fin 0 → Fin S100.rank)
  bcast_S100_S100x1_0 : S100.BroadcastsInDim S100x1 (![0] : Fin 1 → Fin S100x1.rank)
  bcast_S100x1_S100x64_0_1 : S100x1.BroadcastsInDim S100x64 (![0, 1] : Fin 2 → Fin S100x64.rank)
  bcast_S1x16_S100x16_0_1 : S1x16.BroadcastsInDim S100x16 (![0, 1] : Fin 2 → Fin S100x16.rank)
  bcast_S_S100x16 : S_.BroadcastsInDim S100x16 (![] : Fin 0 → Fin S100x16.rank)
  bcast_S2_S1x2_1 : S2.BroadcastsInDim S1x2 (![1] : Fin 1 → Fin S1x2.rank)
  bcast_S1x2_S100x2_0_1 : S1x2.BroadcastsInDim S100x2 (![0, 1] : Fin 2 → Fin S100x2.rank)
  reducesTo_S100x2_S100_d1 : S100x2.ReducesTo [1] S100
  h_S_ : 0 < S_.numel
  bcast_S100x1_S100x2_0_1 : S100x1.BroadcastsInDim S100x2 (![0, 1] : Fin 2 → Fin S100x2.rank)
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S100000x4_S4x16_S100000x16_1_0_0_1_n_n_wf : DotDims.WF S100000x4 S4x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x32_S100000x32_1_0_0_1_n_n_wf : DotDims.WF S100000x16 S16x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x64_S100000x64_1_0_0_1_n_n_wf : DotDims.WF S100000x32 S32x64 S100000x64 [1] [0] [0] [1] [] []
  scatter_S100x64_S100000x1_S100000x64_1_0_0_1_wf : ScatterDims.WF S100x64 S100000x1 S100000x64 [1] [0] [0] 1
  scatter_S100_S100000x1_S100000_n_0_0_1_wf : ScatterDims.WF S100 S100000x1 S100000 [] [0] [0] 1
  dot_S100x64_S64x16_S100x16_1_0_0_1_n_n_wf : DotDims.WF S100x64 S64x16 S100x16 [1] [0] [0] [1] [] []
  dot_S100x16_S16x2_S100x2_1_0_0_1_n_n_wf : DotDims.WF S100x16 S16x2 S100x2 [1] [0] [0] [1] [] []

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S100000x4_S4x16_S100000x16_1_0_0_1_n_n : DotDims S100000x4 S4x16 S100000x16 where
  lhsContracting := [1]
  rhsContracting := [0]
  lhsNonContracting := [0]
  rhsNonContracting := [1]
  lhsBatch := []
  rhsBatch := []
  wf := dot_S100000x4_S4x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S100x64_S100000x1_S100000x64_1_0_0_1 : ScatterDims S100x64 S100000x1 S100000x64 where
  updateWindowDims := [1]
  insertedWindowDims := [0]
  scatterDimsToOperandDims := [0]
  indexVectorDim := 1
  wf := scatter_S100x64_S100000x1_S100000x64_1_0_0_1_wf
def scatter_S100_S100000x1_S100000_n_0_0_1 : ScatterDims S100 S100000x1 S100000 where
  updateWindowDims := []
  insertedWindowDims := [0]
  scatterDimsToOperandDims := [0]
  indexVectorDim := 1
  wf := scatter_S100_S100000x1_S100000_n_0_0_1_wf
def dot_S100x64_S64x16_S100x16_1_0_0_1_n_n : DotDims S100x64 S64x16 S100x16 where
  lhsContracting := [1]
  rhsContracting := [0]
  lhsNonContracting := [0]
  rhsNonContracting := [1]
  lhsBatch := []
  rhsBatch := []
  wf := dot_S100x64_S64x16_S100x16_1_0_0_1_n_n_wf
def dot_S100x16_S16x2_S100x2_1_0_0_1_n_n : DotDims S100x16 S16x2 S100x2 where
  lhsContracting := [1]
  rhsContracting := [0]
  lhsNonContracting := [0]
  rhsNonContracting := [1]
  lhsBatch := []
  rhsBatch := []
  wf := dot_S100x16_S16x2_S100x2_1_0_0_1_n_n_wf

class Facts : Prop extends Facts₀ where

variable [Facts]
-- ==== Proof.Keep.lean ====
/-
  What each segment of the kernel's program leaves alone.

  The program is ten segments: host stretches (straight lines of StableHLO operations) and three pipelined regions.
  A host stretch changes exactly the buffers its operations write: any other buffer holds after it what it held
  before. A region changes exactly its output window's array: an array it only reads through an input window ends
  as it was found, and a buffer that is none of its arrays is not touched. With the contents at the ten segment
  boundaries named `W0 … W10` by the frame, these are the one-step equalities `W(j+1) b = W(j) b` that carry the
  launch arguments, and the two index vectors made once from `edge_index`, forward to where they are read.
-/
import proofs.«408070_j46729244181070_3_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The buffers each host stretch writes -/

/-- The buffers the operations of `hostOps0` write, in order. -/
abbrev hostOps0_W : List (Ref sig .tc) := [main_v0, main_v1, main_v2, main_v3, main_c, main_v4, main_v5, main_c_0, main_v6, main_v7, main_v8, main_v9, main_v10, main_v11, main_v12, main_v13, main_cst, main_v14, main_v15, main_v16]
theorem hostOps0_writes : (hostOps0 : List (HloOp τ sig (Elt F))).Forall fun op => op.writes ⊆ (hostOps0_W.map (Proc.devRef (τ := τ) .tc)).toFinset := by
  simp only [hostOps0, List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps0` does not write holds after the stretch what it held before. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- The buffers the operations of `hostOps1` write, in order. -/
abbrev hostOps1_W : List (Ref sig .tc) := [main_c_1, main_v18, main_v19, main_c_2, main_v20, main_v21, main_v22, main_v23, main_v24, main_v25, main_v26, main_v27, main_cst_3, main_v28, main_v29, main_v30]
theorem hostOps1_writes : (hostOps1 : List (HloOp τ sig (Elt F))).Forall fun op => op.writes ⊆ (hostOps1_W.map (Proc.devRef (τ := τ) .tc)).toFinset := by
  simp only [hostOps1, List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps1` does not write holds after the stretch what it held before. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- The buffers the operations of `hostOps2` write, in order. -/
abbrev hostOps2_W : List (Ref sig .tc) := [main_c_4, main_v32, main_v33, main_c_5, main_v34, main_v35, main_v36, main_v37, main_v38, main_v39, main_v40, main_v41, main_cst_6, main_v42, main_v43, main_v44]
theorem hostOps2_writes : (hostOps2 : List (HloOp τ sig (Elt F))).Forall fun op => op.writes ⊆ (hostOps2_W.map (Proc.devRef (τ := τ) .tc)).toFinset := by
  simp only [hostOps2, List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps2` does not write holds after the stretch what it held before. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- The buffers the operations of `hostOps3` write, in order. -/
abbrev hostOps3_W : List (Ref sig .tc) := [main_cst_7, main_v46, main_v47, main_v48, main_cst_8, main_v49, main_cst_9, main_v50, main_v51, main_v52, main_cst_10, main_v53, main_v54, main_v55, main_v56, main_v57, main_v58, main_v59, main_v60, main_v61, main_cst_11, main_v62, main_v63, main_v64, main_v65, main_v66, main_v67, main_v68, main_v69, main_v70, main_v71, main_v72, main_v73, main_v74]
theorem hostOps3_writes : (hostOps3 : List (HloOp τ sig (Elt F))).Forall fun op => op.writes ⊆ (hostOps3_W.map (Proc.devRef (τ := τ) .tc)).toFinset := by
  simp only [hostOps3, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps3` does not write holds after the stretch what it held before. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- The buffers the operations of `hostOps3_1` write, in order. -/
abbrev hostOps3_1_W : List (Ref sig .tc) := [main_call0_cst, main_call0_v0, main_v75]
theorem hostOps3_1_writes : (hostOps3_1 : List (HloOp τ sig (Elt F))).Forall fun op => op.writes ⊆ (hostOps3_1_W.map (Proc.devRef (τ := τ) .tc)).toFinset := by
  simp only [hostOps3_1, List.Forall]
  refine ⟨?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps3_1` does not write holds after the stretch what it held before. -/
theorem W8_of (c : Dev nD) (r : Ref sig .tc) (h : r ∉ hostOps3_1_W) : W8 m ρ c (Proc.devRef .tc r) = W7 m ρ c (Proc.devRef .tc r) :=
  StableHlo.after_of_writes_sub hostOps3_1 _ hostOps3_1_writes h

/-- The buffers the operations of `hostOps3_2` write, in order. -/
abbrev hostOps3_2_W : List (Ref sig .tc) := [main_v76, main_v77, main_v78, main_v79]
theorem hostOps3_2_writes : (hostOps3_2 : List (HloOp τ sig (Elt F))).Forall fun op => op.writes ⊆ (hostOps3_2_W.map (Proc.devRef (τ := τ) .tc)).toFinset := by
  simp only [hostOps3_2, List.Forall]
  refine ⟨?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps3_2` does not write holds after the stretch what it held before. -/
theorem W9_of (c : Dev nD) (r : Ref sig .tc) (h : r ∉ hostOps3_2_W) : W9 m ρ c (Proc.devRef .tc r) = W8 m ρ c (Proc.devRef .tc r) :=
  StableHlo.after_of_writes_sub hostOps3_2 _ hostOps3_2_writes h

/-- The buffers the operations of `hostOps3_3` write, in order. -/
abbrev hostOps3_3_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v80]
theorem hostOps3_3_writes : (hostOps3_3 : List (HloOp τ sig (Elt F))).Forall fun op => op.writes ⊆ (hostOps3_3_W.map (Proc.devRef (τ := τ) .tc)).toFinset := by
  simp only [hostOps3_3, List.Forall]
  refine ⟨?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps3_3` does not write holds after the stretch what it held before. -/
theorem W10_of (c : Dev nD) (r : Ref sig .tc) (h : r ∉ hostOps3_3_W) : W10 m ρ c (Proc.devRef .tc r) = W9 m ρ c (Proc.devRef .tc r) :=
  StableHlo.after_of_writes_sub hostOps3_3 _ hostOps3_3_writes h

/-! ## What a region leaves alone: everything but its output arrays -/

/-- After region 0 a buffer that is not the array of one of its OUTPUT windows is as the region found it: if it is the
    array of an input window the pipeline's fold over the grid never writes it, and if it is none of the region's
    arrays the region does not reach it. -/
theorem W2_keep (c : Dev nD) (b : Ref sig .tc) (hb : ∀ w : Fin cfg0.W, Pipeline.arrRef spec0 w = b → (cfg0.win w).isOut = false) :
    W2 m ρ c (Proc.devRef .tc b) = W1 m ρ c (Proc.devRef .tc b) := by
  by_cases h : ∃ w : Fin cfg0.W, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩

/-- After region 1 a buffer that is not the array of one of its OUTPUT windows is as the region found it: if it is the
    array of an input window the pipeline's fold over the grid never writes it, and if it is none of the region's
    arrays the region does not reach it. -/
theorem W4_keep (c : Dev nD) (b : Ref sig .tc) (hb : ∀ w : Fin cfg1.W, Pipeline.arrRef spec1 w = b → (cfg1.win w).isOut = false) :
    W4 m ρ c (Proc.devRef .tc b) = W3 m ρ c (Proc.devRef .tc b) := by
  by_cases h : ∃ w : Fin cfg1.W, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩

/-- After region 2 a buffer that is not the array of one of its OUTPUT windows is as the region found it: if it is the
    array of an input window the pipeline's fold over the grid never writes it, and if it is none of the region's
    arrays the region does not reach it. -/
theorem W6_keep (c : Dev nD) (b : Ref sig .tc) (hb : ∀ w : Fin cfg2.W, Pipeline.arrRef spec2 w = b → (cfg2.win w).isOut = false) :
    W6 m ρ c (Proc.devRef .tc b) = W5 m ρ c (Proc.devRef .tc b) := by
  by_cases h : ∃ w : Fin cfg2.W, Pipeline.arrRef spec2 w = b
  · obtain ⟨w, rfl⟩ := h
    exact (W6_arr m ρ c w).trans (((dat2 (V5 m ρ) c).arrAt_in w (hb w rfl) _).trans (A_eq2 (V5 m ρ) c w))
  · exact W6_of_ne m ρ c b fun w e => h ⟨w, e⟩

end Cert.KernelIdeal.Keep

end
-- ==== Proof.Spec.lean ====
/-
  The mathematics the two programs share, stated once and over no program.

  One graph-convolution layer of the network, after the edge aggregation, is a dense map on the node table:
  for node `r` and output feature `q`
      y(r, q) = max ( ( ( (Σ_k a(r,k)·W_rel(k,q) + b(q)) + Σ_k x(r,k)·W_root(k,q) ) − μ(q) ) · ( γ(q) · rsqrt(σ²(q) + ε) ) + β(q) , 0 )
  where `a` is the aggregated neighbourhood table, `x` the node table, `b` the bias, and (γ, β, μ, σ²) the
  running statistics of the batch normalisation. Every operation is the exact one on the extended reals, and the
  additions are associated as written (both programs associate them so), so no law beyond reading each operation
  at an index is needed, and nothing here asks for finiteness.

  `denseAt` is that formula for ONE entry, from the row of `a`, the row of `x`, the two weight columns and the
  five per-feature scalars. `dense R K Q` is the whole table of `R` rows. A block of consecutive rows of
  `dense R K Q` is `dense R' K Q` of the same rows of `a` and `x` (`dense_rows`): an entry reads only its own row.
-/
import Idealize.ShloMosaic.PureOps.Ideal
import Idealize.ShloMosaic.Lib.ValueIdx

noncomputable section

namespace Cert.Spec

open Idealize.ShloMosaic Idealize.ShloMosaic.ValueIdx

/-- The batch normalisation's ε, the f32 word nearest 1e-5 that both programs carry; never evaluated. -/
abbrev bnEps : EReal := Ideal.ofBits .f32 0x3727C5AC#32

/-- The rectifier's threshold, the zero word as both programs carry it. -/
abbrev relu0 : EReal := Ideal.ofBits .f32 0x00000000#32

/-- One entry of a dense layer: the two inner products over the `K` input features, the bias between them, the
    normalisation by the running statistics, and the rectifier. -/
def denseAt {K : Nat} (a x wr wo : Fin K → EReal) (b g be mu v : EReal) : EReal :=
  max (((((∑ k : Fin K, a k * wr k) + b) + ∑ k : Fin K, x k * wo k) - mu) * (g * Ideal.rsqrt (v + bnEps)) + be) relu0

/-- The dense layer on a table of `R` rows, `K` input features and `Q` output features, entry by entry. -/
def dense (R K Q : Nat) (a x : (⟨2, ![R, K]⟩ : Shape).Idx → EReal) (wr wo : (⟨2, ![K, Q]⟩ : Shape).Idx → EReal)
    (b g be mu v : (⟨1, ![Q]⟩ : Shape).Idx → EReal) : (⟨2, ![R, Q]⟩ : Shape).Idx → EReal :=
  fun i => denseAt (fun k => a (ix2 (i 0) k)) (fun k => x (ix2 (i 0) k)) (fun k => wr (ix2 k (i 1))) (fun k => wo (ix2 k (i 1)))
    (b (ix1 (i 1))) (g (ix1 (i 1))) (be (ix1 (i 1))) (mu (ix1 (i 1))) (v (ix1 (i 1)))

/-- The layer at an entry given by its coordinates. -/
theorem dense_apply (R K Q : Nat) (a x : (⟨2, ![R, K]⟩ : Shape).Idx → EReal) (wr wo : (⟨2, ![K, Q]⟩ : Shape).Idx → EReal)
    (b g be mu v : (⟨1, ![Q]⟩ : Shape).Idx → EReal) (r : Fin R) (q : Fin Q) :
    dense R K Q a x wr wo b g be mu v (ix2 r q)
      = denseAt (fun k => a (ix2 r k)) (fun k => x (ix2 r k)) (fun k => wr (ix2 k q)) (fun k => wo (ix2 k q))
          (b (ix1 q)) (g (ix1 q)) (be (ix1 q)) (mu (ix1 q)) (v (ix1 q)) := rfl

/-- An entry of the layer depends on the two tables only through its own row: two pairs of tables whose rows
    `r` and `r'` agree give the same entry in those rows. -/
theorem dense_row_congr (R R' K Q : Nat) (a x : (⟨2, ![R, K]⟩ : Shape).Idx → EReal) (a' x' : (⟨2, ![R', K]⟩ : Shape).Idx → EReal)
    (wr wo : (⟨2, ![K, Q]⟩ : Shape).Idx → EReal) (b g be mu v : (⟨1, ![Q]⟩ : Shape).Idx → EReal) (r : Fin R) (r' : Fin R') (q : Fin Q)
    (ha : ∀ k : Fin K, a' (ix2 r' k) = a (ix2 r k)) (hx : ∀ k : Fin K, x' (ix2 r' k) = x (ix2 r k)) :
    dense R' K Q a' x' wr wo b g be mu v (ix2 r' q) = dense R K Q a x wr wo b g be mu v (ix2 r q) := by
  rw [dense_apply, dense_apply]
  congr 1 <;> first | (funext k; exact ha k) | (funext k; exact hx k)

end Cert.Spec

end
-- ==== Proof.Pay0.lean ====
/-
  Region 0's body, read as mathematics: what it stores is the dense layer (Proof/Spec.lean) of the blocks it loaded.
-/
import proofs.«408070_j46729244181070_3_alg».proof.Proof.Gen.KernelIdeal.Skeleton
import proofs.«408070_j46729244181070_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay0

open Cert.KernelIdeal Cert.KernelIdeal.Gen Idealize.ShloMosaic Idealize.ShloMosaic.ValueIdx

/-- The left operand's index at an output entry and a contraction index: its row is the entry's row … -/
theorem lhs_0 (i : S10000x16.Idx) (q : dot_S10000x4_S4x16_S10000x16_1_0_0_1_n_n.contr.Idx) :
    (dot_S10000x4_S4x16_S10000x16_1_0_0_1_n_n.lhsIdx i q 0).val = (i 0).val := by
  unfold DotDims.lhsIdx
  rw [dif_neg (show ¬(0 : Fin S10000x4.rank) ∈ dot_S10000x4_S4x16_S10000x16_1_0_0_1_n_n.lhsBatch by decide), dif_pos (show (0 : Fin S10000x4.rank) ∈ dot_S10000x4_S4x16_S10000x16_1_0_0_1_n_n.lhsNonContracting by decide)]
  rfl
/-- … and its column is the contraction index. -/
theorem lhs_1 (i : S10000x16.Idx) (q : dot_S10000x4_S4x16_S10000x16_1_0_0_1_n_n.contr.Idx) :
    (dot_S10000x4_S4x16_S10000x16_1_0_0_1_n_n.lhsIdx i q 1).val = (q ⟨0, by decide⟩).val :=
  dot_S10000x4_S4x16_S10000x16_1_0_0_1_n_n.lhsIdx_val_of_single rfl i q
/-- The right operand's index: its row is the contraction index … -/
theorem rhs_0 (i : S10000x16.Idx) (q : dot_S10000x4_S4x16_S10000x16_1_0_0_1_n_n.contr.Idx) :
    (dot_S10000x4_S4x16_S10000x16_1_0_0_1_n_n.rhsIdx i q 0).val = (q ⟨0, by decide⟩).val :=
  dot_S10000x4_S4x16_S10000x16_1_0_0_1_n_n.rhsIdx_val_of_single rfl i q
/-- … and its column is the entry's column. -/
theorem rhs_1 (i : S10000x16.Idx) (q : dot_S10000x4_S4x16_S10000x16_1_0_0_1_n_n.contr.Idx) :
    (dot_S10000x4_S4x16_S10000x16_1_0_0_1_n_n.rhsIdx i q 1).val = (i 1).val := by
  unfold DotDims.rhsIdx
  rw [dif_neg (show ¬(1 : Fin S4x16.rank) ∈ dot_S10000x4_S4x16_S10000x16_1_0_0_1_n_n.rhsBatch by decide), dif_pos (show (1 : Fin S4x16.rank) ∈ dot_S10000x4_S4x16_S10000x16_1_0_0_1_n_n.rhsNonContracting by decide)]
  rfl

/-- The matrix product into the zero accumulator, at an entry, is the inner product of the row and the column. -/
theorem matmul_at (a : FVec Ideal S10000x4 .f32) (w : FVec Ideal S4x16 .f32) (p : Fin 10000) (q : Fin 16) :
    matmul (F := Ideal) dot_S10000x4_S4x16_S10000x16_1_0_0_1_n_n none a w (constant (F := Ideal) S10000x16 .f32 0x00000000#32) (ix2 p q)
      = ∑ k : Fin 4, a (ix2 p k) * w (ix2 k q) := by
  simp only [matmul]
  rw [Ideal.matmul_constant_zero_apply, ← Equiv.sum_comp (contrEquiv1 dot_S10000x4_S4x16_S10000x16_1_0_0_1_n_n 4 rfl rfl).symm]
  refine Finset.sum_congr rfl fun k _ => ?_
  have hk := contrEquiv1_symm_val dot_S10000x4_S4x16_S10000x16_1_0_0_1_n_n 4 rfl rfl k
  have el : dot_S10000x4_S4x16_S10000x16_1_0_0_1_n_n.lhsIdx (ix2 p q) ((contrEquiv1 dot_S10000x4_S4x16_S10000x16_1_0_0_1_n_n 4 rfl rfl).symm k) = ix2 p k := funext fun a => Fin.ext (by
    match a with
    | ⟨0, _⟩ => exact lhs_0 _ _
    | ⟨1, _⟩ => exact (lhs_1 _ _).trans hk)
  have er : dot_S10000x4_S4x16_S10000x16_1_0_0_1_n_n.rhsIdx (ix2 p q) ((contrEquiv1 dot_S10000x4_S4x16_S10000x16_1_0_0_1_n_n 4 rfl rfl).symm k) = ix2 k q := funext fun a => Fin.ext (by
    match a with
    | ⟨0, _⟩ => exact (rhs_0 _ _).trans hk
    | ⟨1, _⟩ => exact rhs_1 _ _)
  rw [el, er]

/-- A vector of 16 features viewed as one row and repeated over the 10000 rows reads, at an entry, the feature of
    the entry's column. -/
theorem row_at (v : Vec Ideal S16 .f32) (p : Fin 10000) (q : Fin 16) :
    broadcastTo S10000x16 (shapeCast S1x16 v shapeCasts_S16_S1x16) broadcasts_S1x16_S10000x16 (ix2 p q) = v (ix1 q) :=
  (broadcastTo_1b_ab_apply _ broadcasts_S1x16_S10000x16 p q).trans (shapeCast_a_1a_apply v shapeCasts_S16_S1x16 0 q)

/-- The value region 0's body stores, from the blocks it loads (x0 the aggregated rows, x1 the node rows, x2 and x3
    the two weight matrices, x4 the bias, x5 x6 x7 x8 the normalisation's scale, shift, mean and variance), is the dense
    layer of those 10000 by 4 blocks, entry by entry. -/
theorem pay (x0 x1 : Vec Ideal S10000x4 .f32) (x2 x3 : Vec Ideal S4x16 .f32) (x4 x5 x6 x7 x8 : Vec Ideal S16 .f32) :
    k0_pay1 (F := Ideal) x0 x2 x4 x1 x3 x8 x7 x5 x6 = Cert.Spec.dense 10000 4 16 x0 x1 x2 x3 x4 x5 x6 x7 x8 := by
  funext j
  obtain ⟨p, q, rfl⟩ : ∃ (p : Fin 10000) (q : Fin 16), j = ix2 p q := ⟨j 0, j 1, eq_ix2 j⟩
  rw [Cert.Spec.dense_apply]
  unfold Cert.Spec.denseAt
  show max ((((matmul (F := Ideal) dot_S10000x4_S4x16_S10000x16_1_0_0_1_n_n none (shapeCast S10000x4 x0 shapeCasts_S10000x4_S10000x4) x2 (constant (F := Ideal) S10000x16 .f32 0x00000000#32) (ix2 p q)
          + broadcastTo S10000x16 (shapeCast S1x16 x4 shapeCasts_S16_S1x16) broadcasts_S1x16_S10000x16 (ix2 p q))
        + matmul (F := Ideal) dot_S10000x4_S4x16_S10000x16_1_0_0_1_n_n none x1 x3 (constant (F := Ideal) S10000x16 .f32 0x00000000#32) (ix2 p q))
      - broadcastTo S10000x16 (shapeCast S1x16 x7 shapeCasts_S16_S1x16) broadcasts_S1x16_S10000x16 (ix2 p q))
      * broadcastTo S10000x16 (shapeCast S1x16 (mulf x5 (rsqrt (addf x8 (broadcast S16 (Scalar.ofBits (F := Ideal) .f32 0x3727C5AC#32))))) shapeCasts_S16_S1x16) broadcasts_S1x16_S10000x16 (ix2 p q)
      + broadcastTo S10000x16 (shapeCast S1x16 x6 shapeCasts_S16_S1x16) broadcasts_S1x16_S10000x16 (ix2 p q))
    (Ideal.ofBits .f32 0x00000000#32) = _
  rw [shapeCast_self x0 shapeCasts_S10000x4_S10000x4, matmul_at, matmul_at, row_at, row_at, row_at, row_at]
  rfl

end Cert.KernelIdeal.Pay0

end
-- ==== Proof.DenseBlock0.lean ====
/-
  Region 0's output array after the pipeline has run over its ten row blocks: the dense layer (Proof/Spec.lean) of the
  region's input arrays as it found them.
-/
import proofs.«408070_j46729244181070_3_alg».proof.Proof.Gen.KernelIdeal.Frame
import proofs.«408070_j46729244181070_3_alg».proof.Proof.Pay0
import proofs.«408070_j46729244181070_3_alg».proof.Proof.Spec
import Idealize.ShloMosaic.Lib.Pipeline.Value
import Idealize.ShloMosaic.Lib.ValueIdx

set_option maxRecDepth 16384

noncomputable section

namespace Cert.KernelIdeal.Dense0

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The windows' block indices over the grid: the two row-blocked inputs and the output sit at block `t` of the rows
    and block 0 of the features; the seven whole windows at block 0 on every axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 1) = 0
    ∧ win0_7.index t (0 : Fin 1) = 0
    ∧ win0_8.index t (0 : Fin 1) = 0 :=
  (by decide +kernel : ∀ t : Fin grid0.N, _)

/-- Row `p` of the aggregated table's block at point `t` is row `10000·t + p` of the table. -/
theorem rows0 (c : Dev nD) (t : Fin cfg0.N) (p : Fin 10000) (k : Fin 4) (h : 10000 * t.val + p.val < 100000) :
    (iblk0 (F := Ideal) V c 0 t : Vec Ideal S10000x4 .f32) (ix2 p k)
      = (V c main_v16 : S100000x4.Idx → EReal) (ix2 ⟨10000 * t.val + p.val, h⟩ k) := by
  obtain ⟨e0, e1, -⟩ := idx_facts t
  unfold iblk0
  rw [View.read_apply]
  show V c main_v16 _ = V c main_v16 _
  congr 1
  funext a
  apply Fin.ext
  match a with
  | ⟨0, _⟩ => show win0_0.index t (0 : Fin 2) * 10000 + 1 * p.val = 10000 * t.val + p.val; rw [e0]; omega
  | ⟨1, _⟩ => show win0_0.index t (1 : Fin 2) * 4 + 1 * k.val = k.val; rw [e1]; omega

/-- Row `p` of the node table's block at point `t` is row `10000·t + p` of the table. -/
theorem rows1 (c : Dev nD) (t : Fin cfg0.N) (p : Fin 10000) (k : Fin 4) (h : 10000 * t.val + p.val < 100000) :
    (iblk0 (F := Ideal) V c 1 t : Vec Ideal S10000x4 .f32) (ix2 p k)
      = (V c main_arg0 : S100000x4.Idx → EReal) (ix2 ⟨10000 * t.val + p.val, h⟩ k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 10000 + 1 * p.val = 10000 * t.val + p.val; rw [e0]; omega
  | ⟨1, _⟩ => show win0_1.index t (1 : Fin 2) * 4 + 1 * k.val = k.val; rw [e1]; omega

/-- The first weight matrix's window is the whole matrix at every point. -/
theorem whole2 (c : Dev nD) (t : Fin cfg0.N) : (iblk0 (F := Ideal) V c 2 t : Vec Ideal S4x16 .f32) = V c main_arg4 := by
  obtain ⟨-, -, -, -, -, -, e0, e1, -⟩ := idx_facts t
  funext j
  unfold iblk0
  rw [View.read_apply]
  show V c main_arg4 _ = V c main_arg4 j
  congr 1
  funext a
  apply Fin.ext
  match a with
  | ⟨0, _⟩ => show win0_2.index t (0 : Fin 2) * 4 + 1 * (j 0).val = (j 0).val; rw [e0]; omega
  | ⟨1, _⟩ => show win0_2.index t (1 : Fin 2) * 16 + 1 * (j 1).val = (j 1).val; rw [e1]; omega

/-- The second weight matrix's window is the whole matrix at every point. -/
theorem whole3 (c : Dev nD) (t : Fin cfg0.N) : (iblk0 (F := Ideal) V c 3 t : Vec Ideal S4x16 .f32) = V c main_arg5 := by
  obtain ⟨-, -, -, -, -, -, -, -, e0, e1, -⟩ := idx_facts t
  funext j
  unfold iblk0
  rw [View.read_apply]
  show V c main_arg5 _ = V c main_arg5 j
  congr 1
  funext a
  apply Fin.ext
  match a with
  | ⟨0, _⟩ => show win0_3.index t (0 : Fin 2) * 4 + 1 * (j 0).val = (j 0).val; rw [e0]; omega
  | ⟨1, _⟩ => show win0_3.index t (1 : Fin 2) * 16 + 1 * (j 1).val = (j 1).val; rw [e1]; omega

/-- The bias's window is the whole vector at every point. -/
theorem whole4 (c : Dev nD) (t : Fin cfg0.N) : (iblk0 (F := Ideal) V c 4 t : Vec Ideal S16 .f32) = V c main_arg6 := by
  obtain ⟨-, -, -, -, -, -, -, -, -, -, e0, -⟩ := idx_facts t
  funext j
  unfold iblk0
  rw [View.read_apply]
  show V c main_arg6 _ = V c main_arg6 j
  congr 1
  funext a
  apply Fin.ext
  match a with
  | ⟨0, _⟩ => show win0_4.index t (0 : Fin 1) * 16 + 1 * (j 0).val = (j 0).val; rw [e0]; omega

/-- The normalisation scale's window is the whole vector at every point. -/
theorem whole5 (c : Dev nD) (t : Fin cfg0.N) : (iblk0 (F := Ideal) V c 5 t : Vec Ideal S16 .f32) = V c main_arg13 := by
  obtain ⟨-, -, -, -, -, -, -, -, -, -, -, e0, -⟩ := idx_facts t
  funext j
  unfold iblk0
  rw [View.read_apply]
  show V c main_arg13 _ = V c main_arg13 j
  congr 1
  funext a
  apply Fin.ext
  match a with
  | ⟨0, _⟩ => show win0_5.index t (0 : Fin 1) * 16 + 1 * (j 0).val = (j 0).val; rw [e0]; omega

/-- The normalisation shift's window is the whole vector at every point. -/
theorem whole6 (c : Dev nD) (t : Fin cfg0.N) : (iblk0 (F := Ideal) V c 6 t : Vec Ideal S16 .f32) = V c main_arg14 := by
  obtain ⟨-, -, -, -, -, -, -, -, -, -, -, -, e0, -⟩ := idx_facts t
  funext j
  unfold iblk0
  rw [View.read_apply]
  show V c main_arg14 _ = V c main_arg14 j
  congr 1
  funext a
  apply Fin.ext
  match a with
  | ⟨0, _⟩ => show win0_6.index t (0 : Fin 1) * 16 + 1 * (j 0).val = (j 0).val; rw [e0]; omega

/-- The running mean's window is the whole vector at every point. -/
theorem whole7 (c : Dev nD) (t : Fin cfg0.N) : (iblk0 (F := Ideal) V c 7 t : Vec Ideal S16 .f32) = V c main_arg15 := by
  obtain ⟨-, -, -, -, -, -, -, -, -, -, -, -, -, e0, -⟩ := idx_facts t
  funext j
  unfold iblk0
  rw [View.read_apply]
  show V c main_arg15 _ = V c main_arg15 j
  congr 1
  funext a
  apply Fin.ext
  match a with
  | ⟨0, _⟩ => show win0_7.index t (0 : Fin 1) * 16 + 1 * (j 0).val = (j 0).val; rw [e0]; omega

/-- The running variance's window is the whole vector at every point. -/
theorem whole8 (c : Dev nD) (t : Fin cfg0.N) : (iblk0 (F := Ideal) V c 8 t : Vec Ideal S16 .f32) = V c main_arg16 := by
  obtain ⟨-, -, -, -, -, -, -, -, -, -, -, -, -, -, e0⟩ := idx_facts t
  funext j
  unfold iblk0
  rw [View.read_apply]
  show V c main_arg16 _ = V c main_arg16 j
  congr 1
  funext a
  apply Fin.ext
  match a with
  | ⟨0, _⟩ => show win0_8.index t (0 : Fin 1) * 16 + 1 * (j 0).val = (j 0).val; rw [e0]; omega

/-- A block of 10000 consecutive rows of the layer, starting at row `10000·n`, is the layer of those rows of the two
    tables: entry `j` of the block's layer is entry `i` of the whole layer when `i` is `j` moved down by `10000·n` rows. -/
theorem dense_block (A X : S100000x4.Idx → EReal) (x0 x1 : S10000x4.Idx → EReal) (wr wo : S4x16.Idx → EReal)
    (b g be mu v : S16.Idx → EReal) (n : Nat)
    (h0 : ∀ (p : Fin 10000) (k : Fin 4) (h : 10000 * n + p.val < 100000), x0 (ix2 p k) = A (ix2 ⟨10000 * n + p.val, h⟩ k))
    (h1 : ∀ (p : Fin 10000) (k : Fin 4) (h : 10000 * n + p.val < 100000), x1 (ix2 p k) = X (ix2 ⟨10000 * n + p.val, h⟩ k))
    (j : S10000x16.Idx) (i : S100000x16.Idx) (hi0 : (i 0).val = 10000 * n + (j 0).val) (hi1 : (i 1).val = (j 1).val) :
    Cert.Spec.dense 10000 4 16 x0 x1 wr wo b g be mu v j = Cert.Spec.dense 100000 4 16 A X wr wo b g be mu v i := by
  obtain ⟨p, q, rfl⟩ : ∃ (p : Fin 10000) (q : Fin 16), j = ix2 p q := ⟨j 0, j 1, eq_ix2 j⟩
  obtain ⟨r, q', rfl⟩ : ∃ (r : Fin 100000) (q' : Fin 16), i = ix2 r q' := ⟨i 0, i 1, eq_ix2 i⟩
  have hr : r.val = 10000 * n + p.val := hi0
  obtain rfl : q' = q := Fin.ext hi1
  have hlt : 10000 * n + p.val < 100000 := hr ▸ r.isLt
  obtain rfl : r = ⟨10000 * n + p.val, hlt⟩ := Fin.ext hr
  exact Cert.Spec.dense_row_congr 100000 10000 4 16 A X x0 x1 wr wo b g be mu v ⟨_, hlt⟩ p _
    (fun k => h0 p k hlt) (fun k => h1 p k hlt)

/-- What point `t` writes back is block `t` of the dense layer of the input arrays as the region finds them. -/
theorem flushed_eq (c : Dev nD) (t : Fin cfg0.N) :
    (dat0 (F := Ideal) V c).flushed 9 t
      = ((cfg0.win 9).blk t).view.read (Elt Ideal)
          (Cert.Spec.dense 100000 4 16 (V c main_v16) (V c main_arg0) (V c main_arg4) (V c main_arg5) (V c main_arg6) (V c main_arg13) (V c main_arg14) (V c main_arg15) (V c main_arg16)) := by
  show (cfg0.win 9).cut (grid0.coords t) ((dat0 V c).after 9 t) = _
  rw [after0_9]
  unfold out0_9
  rw [View.canon_unit_zero hz2]
  simp only [View.ld_unit_zero (S := S10000x4) hz2, View.ld_unit_zero (S := S4x16) hz2, View.ld_unit_zero (S := S16) hz1]
  rw [Cert.KernelIdeal.Pay0.pay]
  rw [whole2 V c t, whole3 V c t, whole4 V c t, whole5 V c t, whole6 V c t, whole7 V c t, whole8 V c t]
  obtain ⟨-, -, -, -, e0, e1, -⟩ := idx_facts t
  funext j
  rw [View.read_apply]
  refine dense_block (V c main_v16) (V c main_arg0) (iblk0 V c 0 t) (iblk0 V c 1 t) (V c main_arg4) (V c main_arg5) (V c main_arg6) (V c main_arg13) (V c main_arg14) (V c main_arg15) (V c main_arg16) t.val
    (fun p k h => rows0 V c t p k h) (fun p k h => rows1 V c t p k h)
    ((cfg0.win 9).xinj (grid0.coords t) j) (((cfg0.win 9).blk t).view.emb j) ?_ ?_
  · show win0_9.index t (0 : Fin 2) * 10000 + 1 * (j 0).val = 10000 * t.val + (j 0).val
    rw [e0]; omega
  · show win0_9.index t (1 : Fin 2) * 16 + 1 * (j 1).val = (j 1).val
    rw [e1]; omega

/-- An index of the output array is in point `t`'s block iff each coordinate is in the block's range on its axis. -/
theorem mem_blk (t : Fin cfg0.N) (i : S100000x16.Idx) :
    i ∈ ((cfg0.win 9).blk t).view.set
      ↔ ∀ a : Fin 2, win0_9.index t a * S10000x16.size a ≤ (i a).val ∧ (i a).val < win0_9.index t a * S10000x16.size a + S10000x16.size a := by
  show i ∈ ((View.whole main_v17).slice (win0_9.rect t)).set ↔ _
  rw [View.set_slice_whole, Rect.mem_set_unit]
  exact Iff.rfl

/-- Every index of the output array is in some point's block: row `r` is in block `r / 10000`. -/
theorem cover (i : S100000x16.Idx) :
    ∃ t : Fin cfg0.N, (cfg0.win 9).flush t = true ∧ i ∈ ((cfg0.win 9).blk t).view.set := by
  have hi0 : (i 0).val < 100000 := (i 0).isLt
  have hi1 : (i 1).val < 16 := (i 1).isLt
  have hN : (i 0).val / 10000 < cfg0.N := by rw [show cfg0.N = 10 from N_0]; omega
  obtain ⟨-, -, -, -, e0, e1, -⟩ := idx_facts ⟨(i 0).val / 10000, hN⟩
  refine ⟨⟨(i 0).val / 10000, hN⟩, flush0_9 _, ?_⟩
  rw [mem_blk]
  intro a
  match a with
  | ⟨0, _⟩ =>
    show win0_9.index ⟨(i 0).val / 10000, hN⟩ (0 : Fin 2) * 10000 ≤ (i 0).val ∧ (i 0).val < win0_9.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win0_9.index ⟨(i 0).val / 10000, hN⟩ (1 : Fin 2) * 16 ≤ (i 1).val ∧ (i 1).val < win0_9.index ⟨(i 0).val / 10000, hN⟩ (1 : Fin 2) * 16 + 16
    rw [e1]; omega

/-- After region 0, its output array holds the dense layer of the arrays its nine input windows read, as the region
    found them: block `t` of the output is the layer of rows 10000·t … 10000·t + 9999, and the ten blocks cover it. -/
theorem arr (c : Dev nD) :
    (dat0 (F := Ideal) V c).arrAt 9 cfg0.N
      = Cert.Spec.dense 100000 4 16 (V c main_v16) (V c main_arg0) (V c main_arg4) (V c main_arg5) (V c main_arg6) (V c main_arg13) (V c main_arg14) (V c main_arg15) (V c main_arg16) :=
  (dat0 (F := Ideal) V c).arrAt_eq_of_cover 9 _ (fun t _ => flushed_eq V c t) cover

end Cert.KernelIdeal.Dense0

end
-- ==== Proof.Pay1.lean ====
/-
  Region 1's body, read as mathematics: what it stores is the dense layer (Proof/Spec.lean) of the blocks it loaded.
-/
import proofs.«408070_j46729244181070_3_alg».proof.Proof.Gen.KernelIdeal.Skeleton
import proofs.«408070_j46729244181070_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay1

open Cert.KernelIdeal Cert.KernelIdeal.Gen Idealize.ShloMosaic Idealize.ShloMosaic.ValueIdx

/-- The left operand's index at an output entry and a contraction index: its row is the entry's row … -/
theorem lhs_0 (i : S10000x32.Idx) (q : dot_S10000x16_S16x32_S10000x32_1_0_0_1_n_n.contr.Idx) :
    (dot_S10000x16_S16x32_S10000x32_1_0_0_1_n_n.lhsIdx i q 0).val = (i 0).val := by
  unfold DotDims.lhsIdx
  rw [dif_neg (show ¬(0 : Fin S10000x16.rank) ∈ dot_S10000x16_S16x32_S10000x32_1_0_0_1_n_n.lhsBatch by decide), dif_pos (show (0 : Fin S10000x16.rank) ∈ dot_S10000x16_S16x32_S10000x32_1_0_0_1_n_n.lhsNonContracting by decide)]
  rfl
/-- … and its column is the contraction index. -/
theorem lhs_1 (i : S10000x32.Idx) (q : dot_S10000x16_S16x32_S10000x32_1_0_0_1_n_n.contr.Idx) :
    (dot_S10000x16_S16x32_S10000x32_1_0_0_1_n_n.lhsIdx i q 1).val = (q ⟨0, by decide⟩).val :=
  dot_S10000x16_S16x32_S10000x32_1_0_0_1_n_n.lhsIdx_val_of_single rfl i q
/-- The right operand's index: its row is the contraction index … -/
theorem rhs_0 (i : S10000x32.Idx) (q : dot_S10000x16_S16x32_S10000x32_1_0_0_1_n_n.contr.Idx) :
    (dot_S10000x16_S16x32_S10000x32_1_0_0_1_n_n.rhsIdx i q 0).val = (q ⟨0, by decide⟩).val :=
  dot_S10000x16_S16x32_S10000x32_1_0_0_1_n_n.rhsIdx_val_of_single rfl i q
/-- … and its column is the entry's column. -/
theorem rhs_1 (i : S10000x32.Idx) (q : dot_S10000x16_S16x32_S10000x32_1_0_0_1_n_n.contr.Idx) :
    (dot_S10000x16_S16x32_S10000x32_1_0_0_1_n_n.rhsIdx i q 1).val = (i 1).val := by
  unfold DotDims.rhsIdx
  rw [dif_neg (show ¬(1 : Fin S16x32.rank) ∈ dot_S10000x16_S16x32_S10000x32_1_0_0_1_n_n.rhsBatch by decide), dif_pos (show (1 : Fin S16x32.rank) ∈ dot_S10000x16_S16x32_S10000x32_1_0_0_1_n_n.rhsNonContracting by decide)]
  rfl

/-- The matrix product into the zero accumulator, at an entry, is the inner product of the row and the column. -/
theorem matmul_at (a : FVec Ideal S10000x16 .f32) (w : FVec Ideal S16x32 .f32) (p : Fin 10000) (q : Fin 32) :
    matmul (F := Ideal) dot_S10000x16_S16x32_S10000x32_1_0_0_1_n_n none a w (constant (F := Ideal) S10000x32 .f32 0x00000000#32) (ix2 p q)
      = ∑ k : Fin 16, a (ix2 p k) * w (ix2 k q) := by
  simp only [matmul]
  rw [Ideal.matmul_constant_zero_apply, ← Equiv.sum_comp (contrEquiv1 dot_S10000x16_S16x32_S10000x32_1_0_0_1_n_n 16 rfl rfl).symm]
  refine Finset.sum_congr rfl fun k _ => ?_
  have hk := contrEquiv1_symm_val dot_S10000x16_S16x32_S10000x32_1_0_0_1_n_n 16 rfl rfl k
  have el : dot_S10000x16_S16x32_S10000x32_1_0_0_1_n_n.lhsIdx (ix2 p q) ((contrEquiv1 dot_S10000x16_S16x32_S10000x32_1_0_0_1_n_n 16 rfl rfl).symm k) = ix2 p k := funext fun a => Fin.ext (by
    match a with
    | ⟨0, _⟩ => exact lhs_0 _ _
    | ⟨1, _⟩ => exact (lhs_1 _ _).trans hk)
  have er : dot_S10000x16_S16x32_S10000x32_1_0_0_1_n_n.rhsIdx (ix2 p q) ((contrEquiv1 dot_S10000x16_S16x32_S10000x32_1_0_0_1_n_n 16 rfl rfl).symm k) = ix2 k q := funext fun a => Fin.ext (by
    match a with
    | ⟨0, _⟩ => exact (rhs_0 _ _).trans hk
    | ⟨1, _⟩ => exact rhs_1 _ _)
  rw [el, er]

/-- A vector of 32 features viewed as one row and repeated over the 10000 rows reads, at an entry, the feature of
    the entry's column. -/
theorem row_at (v : Vec Ideal S32 .f32) (p : Fin 10000) (q : Fin 32) :
    broadcastTo S10000x32 (shapeCast S1x32 v shapeCasts_S32_S1x32) broadcasts_S1x32_S10000x32 (ix2 p q) = v (ix1 q) :=
  (broadcastTo_1b_ab_apply _ broadcasts_S1x32_S10000x32 p q).trans (shapeCast_a_1a_apply v shapeCasts_S32_S1x32 0 q)

/-- The value region 1's body stores, from the blocks it loads (x0 the aggregated rows, x1 the node rows, x2 and x3
    the two weight matrices, x4 the bias, x5 x6 x7 x8 the normalisation's scale, shift, mean and variance), is the dense
    layer of those 10000 by 16 blocks, entry by entry. -/
theorem pay (x0 x1 : Vec Ideal S10000x16 .f32) (x2 x3 : Vec Ideal S16x32 .f32) (x4 x5 x6 x7 x8 : Vec Ideal S32 .f32) :
    k1_pay1 (F := Ideal) x0 x2 x4 x1 x3 x8 x7 x5 x6 = Cert.Spec.dense 10000 16 32 x0 x1 x2 x3 x4 x5 x6 x7 x8 := by
  funext j
  obtain ⟨p, q, rfl⟩ : ∃ (p : Fin 10000) (q : Fin 32), j = ix2 p q := ⟨j 0, j 1, eq_ix2 j⟩
  rw [Cert.Spec.dense_apply]
  unfold Cert.Spec.denseAt
  show max ((((matmul (F := Ideal) dot_S10000x16_S16x32_S10000x32_1_0_0_1_n_n none (shapeCast S10000x16 x0 shapeCasts_S10000x16_S10000x16) x2 (constant (F := Ideal) S10000x32 .f32 0x00000000#32) (ix2 p q)
          + broadcastTo S10000x32 (shapeCast S1x32 x4 shapeCasts_S32_S1x32) broadcasts_S1x32_S10000x32 (ix2 p q))
        + matmul (F := Ideal) dot_S10000x16_S16x32_S10000x32_1_0_0_1_n_n none (shapeCast S10000x16 x1 shapeCasts_S10000x16_S10000x16) x3 (constant (F := Ideal) S10000x32 .f32 0x00000000#32) (ix2 p q))
      - broadcastTo S10000x32 (shapeCast S1x32 x7 shapeCasts_S32_S1x32) broadcasts_S1x32_S10000x32 (ix2 p q))
      * broadcastTo S10000x32 (shapeCast S1x32 (mulf x5 (rsqrt (addf x8 (broadcast S32 (Scalar.ofBits (F := Ideal) .f32 0x3727C5AC#32))))) shapeCasts_S32_S1x32) broadcasts_S1x32_S10000x32 (ix2 p q)
      + broadcastTo S10000x32 (shapeCast S1x32 x6 shapeCasts_S32_S1x32) broadcasts_S1x32_S10000x32 (ix2 p q))
    (Ideal.ofBits .f32 0x00000000#32) = _
  rw [shapeCast_self x0 shapeCasts_S10000x16_S10000x16, shapeCast_self x1 shapeCasts_S10000x16_S10000x16, matmul_at, matmul_at, row_at, row_at, row_at, row_at]
  rfl

end Cert.KernelIdeal.Pay1

end
-- ==== Proof.DenseBlock1.lean ====
/-
  Region 1's output array after the pipeline has run over its ten row blocks: the dense layer (Proof/Spec.lean) of the
  region's input arrays as it found them.
-/
import proofs.«408070_j46729244181070_3_alg».proof.Proof.Gen.KernelIdeal.Frame
import proofs.«408070_j46729244181070_3_alg».proof.Proof.Pay1
import proofs.«408070_j46729244181070_3_alg».proof.Proof.Spec
import Idealize.ShloMosaic.Lib.Pipeline.Value
import Idealize.ShloMosaic.Lib.ValueIdx

set_option maxRecDepth 16384

noncomputable section

namespace Cert.KernelIdeal.Dense1

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The windows' block indices over the grid: the two row-blocked inputs and the output sit at block `t` of the rows
    and block 0 of the features; the seven whole windows at block 0 on every axis. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 1) = 0
    ∧ win1_6.index t (0 : Fin 1) = 0
    ∧ win1_7.index t (0 : Fin 1) = 0
    ∧ win1_8.index t (0 : Fin 1) = 0 :=
  (by decide +kernel : ∀ t : Fin grid1.N, _)

/-- Row `p` of the aggregated table's block at point `t` is row `10000·t + p` of the table. -/
theorem rows0 (c : Dev nD) (t : Fin cfg1.N) (p : Fin 10000) (k : Fin 16) (h : 10000 * t.val + p.val < 100000) :
    (iblk1 (F := Ideal) V c 0 t : Vec Ideal S10000x16 .f32) (ix2 p k)
      = (V c main_v30 : S100000x16.Idx → EReal) (ix2 ⟨10000 * t.val + p.val, h⟩ k) := by
  obtain ⟨e0, e1, -⟩ := idx_facts t
  unfold iblk1
  rw [View.read_apply]
  show V c main_v30 _ = V c main_v30 _
  congr 1
  funext a
  apply Fin.ext
  match a with
  | ⟨0, _⟩ => show win1_0.index t (0 : Fin 2) * 10000 + 1 * p.val = 10000 * t.val + p.val; rw [e0]; omega
  | ⟨1, _⟩ => show win1_0.index t (1 : Fin 2) * 16 + 1 * k.val = k.val; rw [e1]; omega

/-- Row `p` of the node table's block at point `t` is row `10000·t + p` of the table. -/
theorem rows1 (c : Dev nD) (t : Fin cfg1.N) (p : Fin 10000) (k : Fin 16) (h : 10000 * t.val + p.val < 100000) :
    (iblk1 (F := Ideal) V c 1 t : Vec Ideal S10000x16 .f32) (ix2 p k)
      = (V c main_v17 : S100000x16.Idx → EReal) (ix2 ⟨10000 * t.val + p.val, h⟩ k) := by
  obtain ⟨-, -, e0, e1, -⟩ := idx_facts t
  unfold iblk1
  rw [View.read_apply]
  show V c main_v17 _ = V c main_v17 _
  congr 1
  funext a
  apply Fin.ext
  match a with
  | ⟨0, _⟩ => show win1_1.index t (0 : Fin 2) * 10000 + 1 * p.val = 10000 * t.val + p.val; rw [e0]; omega
  | ⟨1, _⟩ => show win1_1.index t (1 : Fin 2) * 16 + 1 * k.val = k.val; rw [e1]; omega

/-- The first weight matrix's window is the whole matrix at every point. -/
theorem whole2 (c : Dev nD) (t : Fin cfg1.N) : (iblk1 (F := Ideal) V c 2 t : Vec Ideal S16x32 .f32) = V c main_arg7 := by
  obtain ⟨-, -, -, -, -, -, e0, e1, -⟩ := idx_facts t
  funext j
  unfold iblk1
  rw [View.read_apply]
  show V c main_arg7 _ = V c main_arg7 j
  congr 1
  funext a
  apply Fin.ext
  match a with
  | ⟨0, _⟩ => show win1_2.index t (0 : Fin 2) * 16 + 1 * (j 0).val = (j 0).val; rw [e0]; omega
  | ⟨1, _⟩ => show win1_2.index t (1 : Fin 2) * 32 + 1 * (j 1).val = (j 1).val; rw [e1]; omega

/-- The second weight matrix's window is the whole matrix at every point. -/
theorem whole3 (c : Dev nD) (t : Fin cfg1.N) : (iblk1 (F := Ideal) V c 3 t : Vec Ideal S16x32 .f32) = V c main_arg8 := by
  obtain ⟨-, -, -, -, -, -, -, -, e0, e1, -⟩ := idx_facts t
  funext j
  unfold iblk1
  rw [View.read_apply]
  show V c main_arg8 _ = V c main_arg8 j
  congr 1
  funext a
  apply Fin.ext
  match a with
  | ⟨0, _⟩ => show win1_3.index t (0 : Fin 2) * 16 + 1 * (j 0).val = (j 0).val; rw [e0]; omega
  | ⟨1, _⟩ => show win1_3.index t (1 : Fin 2) * 32 + 1 * (j 1).val = (j 1).val; rw [e1]; omega

/-- The bias's window is the whole vector at every point. -/
theorem whole4 (c : Dev nD) (t : Fin cfg1.N) : (iblk1 (F := Ideal) V c 4 t : Vec Ideal S32 .f32) = V c main_arg9 := by
  obtain ⟨-, -, -, -, -, -, -, -, -, -, e0, -⟩ := idx_facts t
  funext j
  unfold iblk1
  rw [View.read_apply]
  show V c main_arg9 _ = V c main_arg9 j
  congr 1
  funext a
  apply Fin.ext
  match a with
  | ⟨0, _⟩ => show win1_4.index t (0 : Fin 1) * 32 + 1 * (j 0).val = (j 0).val; rw [e0]; omega

/-- The normalisation scale's window is the whole vector at every point. -/
theorem whole5 (c : Dev nD) (t : Fin cfg1.N) : (iblk1 (F := Ideal) V c 5 t : Vec Ideal S32 .f32) = V c main_arg17 := by
  obtain ⟨-, -, -, -, -, -, -, -, -, -, -, e0, -⟩ := idx_facts t
  funext j
  unfold iblk1
  rw [View.read_apply]
  show V c main_arg17 _ = V c main_arg17 j
  congr 1
  funext a
  apply Fin.ext
  match a with
  | ⟨0, _⟩ => show win1_5.index t (0 : Fin 1) * 32 + 1 * (j 0).val = (j 0).val; rw [e0]; omega

/-- The normalisation shift's window is the whole vector at every point. -/
theorem whole6 (c : Dev nD) (t : Fin cfg1.N) : (iblk1 (F := Ideal) V c 6 t : Vec Ideal S32 .f32) = V c main_arg18 := by
  obtain ⟨-, -, -, -, -, -, -, -, -, -, -, -, e0, -⟩ := idx_facts t
  funext j
  unfold iblk1
  rw [View.read_apply]
  show V c main_arg18 _ = V c main_arg18 j
  congr 1
  funext a
  apply Fin.ext
  match a with
  | ⟨0, _⟩ => show win1_6.index t (0 : Fin 1) * 32 + 1 * (j 0).val = (j 0).val; rw [e0]; omega

/-- The running mean's window is the whole vector at every point. -/
theorem whole7 (c : Dev nD) (t : Fin cfg1.N) : (iblk1 (F := Ideal) V c 7 t : Vec Ideal S32 .f32) = V c main_arg19 := by
  obtain ⟨-, -, -, -, -, -, -, -, -, -, -, -, -, e0, -⟩ := idx_facts t
  funext j
  unfold iblk1
  rw [View.read_apply]
  show V c main_arg19 _ = V c main_arg19 j
  congr 1
  funext a
  apply Fin.ext
  match a with
  | ⟨0, _⟩ => show win1_7.index t (0 : Fin 1) * 32 + 1 * (j 0).val = (j 0).val; rw [e0]; omega

/-- The running variance's window is the whole vector at every point. -/
theorem whole8 (c : Dev nD) (t : Fin cfg1.N) : (iblk1 (F := Ideal) V c 8 t : Vec Ideal S32 .f32) = V c main_arg20 := by
  obtain ⟨-, -, -, -, -, -, -, -, -, -, -, -, -, -, e0⟩ := idx_facts t
  funext j
  unfold iblk1
  rw [View.read_apply]
  show V c main_arg20 _ = V c main_arg20 j
  congr 1
  funext a
  apply Fin.ext
  match a with
  | ⟨0, _⟩ => show win1_8.index t (0 : Fin 1) * 32 + 1 * (j 0).val = (j 0).val; rw [e0]; omega

/-- A block of 10000 consecutive rows of the layer, starting at row `10000·n`, is the layer of those rows of the two
    tables: entry `j` of the block's layer is entry `i` of the whole layer when `i` is `j` moved down by `10000·n` rows. -/
theorem dense_block (A X : S100000x16.Idx → EReal) (x0 x1 : S10000x16.Idx → EReal) (wr wo : S16x32.Idx → EReal)
    (b g be mu v : S32.Idx → EReal) (n : Nat)
    (h0 : ∀ (p : Fin 10000) (k : Fin 16) (h : 10000 * n + p.val < 100000), x0 (ix2 p k) = A (ix2 ⟨10000 * n + p.val, h⟩ k))
    (h1 : ∀ (p : Fin 10000) (k : Fin 16) (h : 10000 * n + p.val < 100000), x1 (ix2 p k) = X (ix2 ⟨10000 * n + p.val, h⟩ k))
    (j : S10000x32.Idx) (i : S100000x32.Idx) (hi0 : (i 0).val = 10000 * n + (j 0).val) (hi1 : (i 1).val = (j 1).val) :
    Cert.Spec.dense 10000 16 32 x0 x1 wr wo b g be mu v j = Cert.Spec.dense 100000 16 32 A X wr wo b g be mu v i := by
  obtain ⟨p, q, rfl⟩ : ∃ (p : Fin 10000) (q : Fin 32), j = ix2 p q := ⟨j 0, j 1, eq_ix2 j⟩
  obtain ⟨r, q', rfl⟩ : ∃ (r : Fin 100000) (q' : Fin 32), i = ix2 r q' := ⟨i 0, i 1, eq_ix2 i⟩
  have hr : r.val = 10000 * n + p.val := hi0
  obtain rfl : q' = q := Fin.ext hi1
  have hlt : 10000 * n + p.val < 100000 := hr ▸ r.isLt
  obtain rfl : r = ⟨10000 * n + p.val, hlt⟩ := Fin.ext hr
  exact Cert.Spec.dense_row_congr 100000 10000 16 32 A X x0 x1 wr wo b g be mu v ⟨_, hlt⟩ p _
    (fun k => h0 p k hlt) (fun k => h1 p k hlt)

/-- What point `t` writes back is block `t` of the dense layer of the input arrays as the region finds them. -/
theorem flushed_eq (c : Dev nD) (t : Fin cfg1.N) :
    (dat1 (F := Ideal) V c).flushed 9 t
      = ((cfg1.win 9).blk t).view.read (Elt Ideal)
          (Cert.Spec.dense 100000 16 32 (V c main_v30) (V c main_v17) (V c main_arg7) (V c main_arg8) (V c main_arg9) (V c main_arg17) (V c main_arg18) (V c main_arg19) (V c main_arg20)) := by
  show (cfg1.win 9).cut (grid1.coords t) ((dat1 V c).after 9 t) = _
  rw [after1_9]
  unfold out1_9
  rw [View.canon_unit_zero hz2]
  simp only [View.ld_unit_zero (S := S10000x16) hz2, View.ld_unit_zero (S := S16x32) hz2, View.ld_unit_zero (S := S32) hz1]
  rw [Cert.KernelIdeal.Pay1.pay]
  rw [whole2 V c t, whole3 V c t, whole4 V c t, whole5 V c t, whole6 V c t, whole7 V c t, whole8 V c t]
  obtain ⟨-, -, -, -, e0, e1, -⟩ := idx_facts t
  funext j
  rw [View.read_apply]
  refine dense_block (V c main_v30) (V c main_v17) (iblk1 V c 0 t) (iblk1 V c 1 t) (V c main_arg7) (V c main_arg8) (V c main_arg9) (V c main_arg17) (V c main_arg18) (V c main_arg19) (V c main_arg20) t.val
    (fun p k h => rows0 V c t p k h) (fun p k h => rows1 V c t p k h)
    ((cfg1.win 9).xinj (grid1.coords t) j) (((cfg1.win 9).blk t).view.emb j) ?_ ?_
  · show win1_9.index t (0 : Fin 2) * 10000 + 1 * (j 0).val = 10000 * t.val + (j 0).val
    rw [e0]; omega
  · show win1_9.index t (1 : Fin 2) * 32 + 1 * (j 1).val = (j 1).val
    rw [e1]; omega

/-- An index of the output array is in point `t`'s block iff each coordinate is in the block's range on its axis. -/
theorem mem_blk (t : Fin cfg1.N) (i : S100000x32.Idx) :
    i ∈ ((cfg1.win 9).blk t).view.set
      ↔ ∀ a : Fin 2, win1_9.index t a * S10000x32.size a ≤ (i a).val ∧ (i a).val < win1_9.index t a * S10000x32.size a + S10000x32.size a := by
  show i ∈ ((View.whole main_v31).slice (win1_9.rect t)).set ↔ _
  rw [View.set_slice_whole, Rect.mem_set_unit]
  exact Iff.rfl

/-- Every index of the output array is in some point's block: row `r` is in block `r / 10000`. -/
theorem cover (i : S100000x32.Idx) :
    ∃ t : Fin cfg1.N, (cfg1.win 9).flush t = true ∧ i ∈ ((cfg1.win 9).blk t).view.set := by
  have hi0 : (i 0).val < 100000 := (i 0).isLt
  have hi1 : (i 1).val < 32 := (i 1).isLt
  have hN : (i 0).val / 10000 < cfg1.N := by rw [show cfg1.N = 10 from N_1]; omega
  obtain ⟨-, -, -, -, e0, e1, -⟩ := idx_facts ⟨(i 0).val / 10000, hN⟩
  refine ⟨⟨(i 0).val / 10000, hN⟩, flush1_9 _, ?_⟩
  rw [mem_blk]
  intro a
  match a with
  | ⟨0, _⟩ =>
    show win1_9.index ⟨(i 0).val / 10000, hN⟩ (0 : Fin 2) * 10000 ≤ (i 0).val ∧ (i 0).val < win1_9.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win1_9.index ⟨(i 0).val / 10000, hN⟩ (1 : Fin 2) * 32 ≤ (i 1).val ∧ (i 1).val < win1_9.index ⟨(i 0).val / 10000, hN⟩ (1 : Fin 2) * 32 + 32
    rw [e1]; omega

/-- After region 1, its output array holds the dense layer of the arrays its nine input windows read, as the region
    found them: block `t` of the output is the layer of rows 10000·t … 10000·t + 9999, and the ten blocks cover it. -/
theorem arr (c : Dev nD) :
    (dat1 (F := Ideal) V c).arrAt 9 cfg1.N
      = Cert.Spec.dense 100000 16 32 (V c main_v30) (V c main_v17) (V c main_arg7) (V c main_arg8) (V c main_arg9) (V c main_arg17) (V c main_arg18) (V c main_arg19) (V c main_arg20) :=
  (dat1 (F := Ideal) V c).arrAt_eq_of_cover 9 _ (fun t _ => flushed_eq V c t) cover

end Cert.KernelIdeal.Dense1

end
-- ==== Proof.Pay2.lean ====
/-
  Region 2's body, read as mathematics: what it stores is the dense layer (Proof/Spec.lean) of the blocks it loaded.
-/
import proofs.«408070_j46729244181070_3_alg».proof.Proof.Gen.KernelIdeal.Skeleton
import proofs.«408070_j46729244181070_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay2

open Cert.KernelIdeal Cert.KernelIdeal.Gen Idealize.ShloMosaic Idealize.ShloMosaic.ValueIdx

/-- The left operand's index at an output entry and a contraction index: its row is the entry's row … -/
theorem lhs_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
/-- … and its column is the contraction index. -/
theorem lhs_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
/-- The right operand's index: its row is the contraction index … -/
theorem rhs_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
/-- … and its column is the entry's column. -/
theorem rhs_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The matrix product into the zero accumulator, at an entry, is the inner product of the row and the column. -/
theorem matmul_at (a : FVec Ideal S10000x32 .f32) (w : FVec Ideal S32x64 .f32) (p : Fin 10000) (q : Fin 64) :
    matmul (F := Ideal) dot_S10000x32_S32x64_S10000x64_1_0_0_1_n_n none a w (constant (F := Ideal) S10000x64 .f32 0x00000000#32) (ix2 p q)
      = ∑ k : Fin 32, a (ix2 p k) * w (ix2 k q) := by
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q) ((contrEquiv1 dot_S10000x32_S32x64_S10000x64_1_0_0_1_n_n 32 rfl rfl).symm k) = ix2 p k := funext fun a => Fin.ext (by
    match a with
    | ⟨0, _⟩ => exact lhs_0 _ _
    | ⟨1, _⟩ => exact (lhs_1 _ _).trans hk)
  have er : dot_S10000x32_S32x64_S10000x64_1_0_0_1_n_n.rhsIdx (ix2 p q) ((contrEquiv1 dot_S10000x32_S32x64_S10000x64_1_0_0_1_n_n 32 rfl rfl).symm k) = ix2 k q := funext fun a => Fin.ext (by
    match a with
    | ⟨0, _⟩ => exact (rhs_0 _ _).trans hk
    | ⟨1, _⟩ => exact rhs_1 _ _)
  rw [el, er]

/-- A vector of 64 features viewed as one row and repeated over the 10000 rows reads, at an entry, the feature of
    the entry's column. -/
theorem row_at (v : Vec Ideal S64 .f32) (p : Fin 10000) (q : Fin 64) :
    broadcastTo S10000x64 (shapeCast S1x64 v shapeCasts_S64_S1x64) broadcasts_S1x64_S10000x64 (ix2 p q) = v (ix1 q) :=
  (broadcastTo_1b_ab_apply _ broadcasts_S1x64_S10000x64 p q).trans (shapeCast_a_1a_apply v shapeCasts_S64_S1x64 0 q)

/-- The value region 2's body stores, from the blocks it loads (x0 the aggregated rows, x1 the node rows, x2 and x3
    the two weight matrices, x4 the bias, x5 x6 x7 x8 the normalisation's scale, shift, mean and variance), is the dense
    layer of those 10000 by 32 blocks, entry by entry. -/
theorem pay (x0 x1 : Vec Ideal S10000x32 .f32) (x2 x3 : Vec Ideal S32x64 .f32) (x4 x5 x6 x7 x8 : Vec Ideal S64 .f32) :
    k2_pay1 (F := Ideal) x0 x2 x4 x1 x3 x8 x7 x5 x6 = Cert.Spec.dense 10000 32 64 x0 x1 x2 x3 x4 x5 x6 x7 x8 := by
  funext j
  obtain ⟨p, q, rfl⟩ : ∃ (p : Fin 10000) (q : Fin 64), j = ix2 p q := ⟨j 0, j 1, eq_ix2 j⟩
  rw [Cert.Spec.dense_apply]
  unfold Cert.Spec.denseAt
  show max ((((matmul (F := Ideal) dot_S10000x32_S32x64_S10000x64_1_0_0_1_n_n none (shapeCast S10000x32 x0 shapeCasts_S10000x32_S10000x32) x2 (constant (F := Ideal) S10000x64 .f32 0x00000000#32) (ix2 p q)
          + broadcastTo S10000x64 (shapeCast S1x64 x4 shapeCasts_S64_S1x64) broadcasts_S1x64_S10000x64 (ix2 p q))
        + matmul (F := Ideal) dot_S10000x32_S32x64_S10000x64_1_0_0_1_n_n none (shapeCast S10000x32 x1 shapeCasts_S10000x32_S10000x32) x3 (constant (F := Ideal) S10000x64 .f32 0x00000000#32) (ix2 p q))
      - broadcastTo S10000x64 (shapeCast S1x64 x7 shapeCasts_S64_S1x64) broadcasts_S1x64_S10000x64 (ix2 p q))
      * broadcastTo S10000x64 (shapeCast S1x64 (mulf x5 (rsqrt (addf x8 (broadcast S64 (Scalar.ofBits (F := Ideal) .f32 0x3727C5AC#32))))) shapeCasts_S64_S1x64) broadcasts_S1x64_S10000x64 (ix2 p q)
      + broadcastTo S10000x64 (shapeCast S1x64 x6 shapeCasts_S64_S1x64) broadcasts_S1x64_S10000x64 (ix2 p q))
    (Ideal.ofBits .f32 0x00000000#32) = _
  rw [shapeCast_self x0 shapeCasts_S10000x32_S10000x32, shapeCast_self x1 shapeCasts_S10000x32_S10000x32, matmul_at, matmul_at, row_at, row_at, row_at, row_at]
  rfl

end Cert.KernelIdeal.Pay2

end
-- ==== Proof.DenseBlock2.lean ====
/-
  Region 2's output array after the pipeline has run over its ten row blocks: the dense layer (Proof/Spec.lean) of the
  region's input arrays as it found them.
-/
import proofs.«408070_j46729244181070_3_alg».proof.Proof.Gen.KernelIdeal.Frame
import proofs.«408070_j46729244181070_3_alg».proof.Proof.Pay2
import proofs.«408070_j46729244181070_3_alg».proof.Proof.Spec
import Idealize.ShloMosaic.Lib.Pipeline.Value
import Idealize.ShloMosaic.Lib.ValueIdx

set_option maxRecDepth 16384

noncomputable section

namespace Cert.KernelIdeal.Dense2

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The windows' block indices over the grid: the two row-blocked inputs and the output sit at block `t` of the rows
    and block 0 of the features; the seven whole windows at block 0 on every axis. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_9.index t (0 : Fin 2) = t.val ∧ win2_9.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 1) = 0
    ∧ win2_6.index t (0 : Fin 1) = 0
    ∧ win2_7.index t (0 : Fin 1) = 0
    ∧ win2_8.index t (0 : Fin 1) = 0 :=
  (by decide +kernel : ∀ t : Fin grid2.N, _)

/-- Row `p` of the aggregated table's block at point `t` is row `10000·t + p` of the table. -/
theorem rows0 (c : Dev nD) (t : Fin cfg2.N) (p : Fin 10000) (k : Fin 32) (h : 10000 * t.val + p.val < 100000) :
    (iblk2 (F := Ideal) V c 0 t : Vec Ideal S10000x32 .f32) (ix2 p k)
      = (V c main_v44 : S100000x32.Idx → EReal) (ix2 ⟨10000 * t.val + p.val, h⟩ k) := by
  obtain ⟨e0, e1, -⟩ := idx_facts t
  unfold iblk2
  rw [View.read_apply]
  show V c main_v44 _ = V c main_v44 _
  congr 1
  funext a
  apply Fin.ext
  match a with
  | ⟨0, _⟩ => show win2_0.index t (0 : Fin 2) * 10000 + 1 * p.val = 10000 * t.val + p.val; rw [e0]; omega
  | ⟨1, _⟩ => show win2_0.index t (1 : Fin 2) * 32 + 1 * k.val = k.val; rw [e1]; omega

/-- Row `p` of the node table's block at point `t` is row `10000·t + p` of the table. -/
theorem rows1 (c : Dev nD) (t : Fin cfg2.N) (p : Fin 10000) (k : Fin 32) (h : 10000 * t.val + p.val < 100000) :
    (iblk2 (F := Ideal) V c 1 t : Vec Ideal S10000x32 .f32) (ix2 p k)
      = (V c main_v31 : S100000x32.Idx → EReal) (ix2 ⟨10000 * t.val + p.val, h⟩ k) := by
  obtain ⟨-, -, e0, e1, -⟩ := idx_facts t
  unfold iblk2
  rw [View.read_apply]
  show V c main_v31 _ = V c main_v31 _
  congr 1
  funext a
  apply Fin.ext
  match a with
  | ⟨0, _⟩ => show win2_1.index t (0 : Fin 2) * 10000 + 1 * p.val = 10000 * t.val + p.val; rw [e0]; omega
  | ⟨1, _⟩ => show win2_1.index t (1 : Fin 2) * 32 + 1 * k.val = k.val; rw [e1]; omega

/-- The first weight matrix's window is the whole matrix at every point. -/
theorem whole2 (c : Dev nD) (t : Fin cfg2.N) : (iblk2 (F := Ideal) V c 2 t : Vec Ideal S32x64 .f32) = V c main_arg10 := by
  obtain ⟨-, -, -, -, -, -, e0, e1, -⟩ := idx_facts t
  funext j
  unfold iblk2
  rw [View.read_apply]
  show V c main_arg10 _ = V c main_arg10 j
  congr 1
  funext a
  apply Fin.ext
  match a with
  | ⟨0, _⟩ => show win2_2.index t (0 : Fin 2) * 32 + 1 * (j 0).val = (j 0).val; rw [e0]; omega
  | ⟨1, _⟩ => show win2_2.index t (1 : Fin 2) * 64 + 1 * (j 1).val = (j 1).val; rw [e1]; omega

/-- The second weight matrix's window is the whole matrix at every point. -/
theorem whole3 (c : Dev nD) (t : Fin cfg2.N) : (iblk2 (F := Ideal) V c 3 t : Vec Ideal S32x64 .f32) = V c main_arg11 := by
  obtain ⟨-, -, -, -, -, -, -, -, e0, e1, -⟩ := idx_facts t
  funext j
  unfold iblk2
  rw [View.read_apply]
  show V c main_arg11 _ = V c main_arg11 j
  congr 1
  funext a
  apply Fin.ext
  match a with
  | ⟨0, _⟩ => show win2_3.index t (0 : Fin 2) * 32 + 1 * (j 0).val = (j 0).val; rw [e0]; omega
  | ⟨1, _⟩ => show win2_3.index t (1 : Fin 2) * 64 + 1 * (j 1).val = (j 1).val; rw [e1]; omega

/-- The bias's window is the whole vector at every point. -/
theorem whole4 (c : Dev nD) (t : Fin cfg2.N) : (iblk2 (F := Ideal) V c 4 t : Vec Ideal S64 .f32) = V c main_arg12 := by
  obtain ⟨-, -, -, -, -, -, -, -, -, -, e0, -⟩ := idx_facts t
  funext j
  unfold iblk2
  rw [View.read_apply]
  show V c main_arg12 _ = V c main_arg12 j
  congr 1
  funext a
  apply Fin.ext
  match a with
  | ⟨0, _⟩ => show win2_4.index t (0 : Fin 1) * 64 + 1 * (j 0).val = (j 0).val; rw [e0]; omega

/-- The normalisation scale's window is the whole vector at every point. -/
theorem whole5 (c : Dev nD) (t : Fin cfg2.N) : (iblk2 (F := Ideal) V c 5 t : Vec Ideal S64 .f32) = V c main_arg21 := by
  obtain ⟨-, -, -, -, -, -, -, -, -, -, -, e0, -⟩ := idx_facts t
  funext j
  unfold iblk2
  rw [View.read_apply]
  show V c main_arg21 _ = V c main_arg21 j
  congr 1
  funext a
  apply Fin.ext
  match a with
  | ⟨0, _⟩ => show win2_5.index t (0 : Fin 1) * 64 + 1 * (j 0).val = (j 0).val; rw [e0]; omega

/-- The normalisation shift's window is the whole vector at every point. -/
theorem whole6 (c : Dev nD) (t : Fin cfg2.N) : (iblk2 (F := Ideal) V c 6 t : Vec Ideal S64 .f32) = V c main_arg22 := by
  obtain ⟨-, -, -, -, -, -, -, -, -, -, -, -, e0, -⟩ := idx_facts t
  funext j
  unfold iblk2
  rw [View.read_apply]
  show V c main_arg22 _ = V c main_arg22 j
  congr 1
  funext a
  apply Fin.ext
  match a with
  | ⟨0, _⟩ => show win2_6.index t (0 : Fin 1) * 64 + 1 * (j 0).val = (j 0).val; rw [e0]; omega

/-- The running mean's window is the whole vector at every point. -/
theorem whole7 (c : Dev nD) (t : Fin cfg2.N) : (iblk2 (F := Ideal) V c 7 t : Vec Ideal S64 .f32) = V c main_arg23 := by
  obtain ⟨-, -, -, -, -, -, -, -, -, -, -, -, -, e0, -⟩ := idx_facts t
  funext j
  unfold iblk2
  rw [View.read_apply]
  show V c main_arg23 _ = V c main_arg23 j
  congr 1
  funext a
  apply Fin.ext
  match a with
  | ⟨0, _⟩ => show win2_7.index t (0 : Fin 1) * 64 + 1 * (j 0).val = (j 0).val; rw [e0]; omega

/-- The running variance's window is the whole vector at every point. -/
theorem whole8 (c : Dev nD) (t : Fin cfg2.N) : (iblk2 (F := Ideal) V c 8 t : Vec Ideal S64 .f32) = V c main_arg24 := by
  obtain ⟨-, -, -, -, -, -, -, -, -, -, -, -, -, -, e0⟩ := idx_facts t
  funext j
  unfold iblk2
  rw [View.read_apply]
  show V c main_arg24 _ = V c main_arg24 j
  congr 1
  funext a
  apply Fin.ext
  match a with
  | ⟨0, _⟩ => show win2_8.index t (0 : Fin 1) * 64 + 1 * (j 0).val = (j 0).val; rw [e0]; omega

/-- A block of 10000 consecutive rows of the layer, starting at row `10000·n`, is the layer of those rows of the two
    tables: entry `j` of the block's layer is entry `i` of the whole layer when `i` is `j` moved down by `10000·n` rows. -/
theorem dense_block (A X : S100000x32.Idx → EReal) (x0 x1 : S10000x32.Idx → EReal) (wr wo : S32x64.Idx → EReal)
    (b g be mu v : S64.Idx → EReal) (n : Nat)
    (h0 : ∀ (p : Fin 10000) (k : Fin 32) (h : 10000 * n + p.val < 100000), x0 (ix2 p k) = A (ix2 ⟨10000 * n + p.val, h⟩ k))
    (h1 : ∀ (p : Fin 10000) (k : Fin 32) (h : 10000 * n + p.val < 100000), x1 (ix2 p k) = X (ix2 ⟨10000 * n + p.val, h⟩ k))
    (j : S10000x64.Idx) (i : S100000x64.Idx) (hi0 : (i 0).val = 10000 * n + (j 0).val) (hi1 : (i 1).val = (j 1).val) :
    Cert.Spec.dense 10000 32 64 x0 x1 wr wo b g be mu v j = Cert.Spec.dense 100000 32 64 A X wr wo b g be mu v i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hr : r.val = 10000 * n + p.val := hi0
  obtain rfl : q' = q := Fin.ext hi1
  have hlt : 10000 * n + p.val < 100000 := hr ▸ r.isLt
  obtain rfl : r = ⟨10000 * n + p.val, hlt⟩ := Fin.ext hr
  exact Cert.Spec.dense_row_congr 100000 10000 32 64 A X x0 x1 wr wo b g be mu v ⟨_, hlt⟩ p _
    (fun k => h0 p k hlt) (fun k => h1 p k hlt)

/-- What point `t` writes back is block `t` of the dense layer of the input arrays as the region finds them. -/
theorem flushed_eq (c : Dev nD) (t : Fin cfg2.N) :
    (dat2 (F := Ideal) V c).flushed 9 t
      = ((cfg2.win 9).blk t).view.read (Elt Ideal)
          (Cert.Spec.dense 100000 32 64 (V c main_v44) (V c main_v31) (V c main_arg10) (V c main_arg11) (V c main_arg12) (V c main_arg21) (V c main_arg22) (V c main_arg23) (V c main_arg24)) := by
  show (cfg2.win 9).cut (grid2.coords t) ((dat2 V c).after 9 t) = _
  rw [after2_9]
  unfold out2_9
  rw [View.canon_unit_zero hz2]
  simp only [View.ld_unit_zero (S := S10000x32) hz2, View.ld_unit_zero (S := S32x64) hz2, View.ld_unit_zero (S := S64) hz1]
  rw [Cert.KernelIdeal.Pay2.pay]
  rw [whole2 V c t, whole3 V c t, whole4 V c t, whole5 V c t, whole6 V c t, whole7 V c t, whole8 V c t]
  obtain ⟨-, -, -, -, e0, e1, -⟩ := idx_facts t
  funext j
  rw [View.read_apply]
  refine dense_block (V c main_v44) (V c main_v31) (iblk2 V c 0 t) (iblk2 V c 1 t) (V c main_arg10) (V c main_arg11) (V c main_arg12) (V c main_arg21) (V c main_arg22) (V c main_arg23) (V c main_arg24) t.val
    (fun p k h => rows0 V c t p k h) (fun p k h => rows1 V c t p k h)
    ((cfg2.win 9).xinj (grid2.coords t) j) (((cfg2.win 9).blk t).view.emb j) ?_ ?_
  · show win2_9.index t (0 : Fin 2) * 10000 + 1 * (j 0).val = 10000 * t.val + (j 0).val
    rw [e0]; omega
  · show win2_9.index t (1 : Fin 2) * 64 + 1 * (j 1).val = (j 1).val
    rw [e1]; omega

/-- An index of the output array is in point `t`'s block iff each coordinate is in the block's range on its axis. -/
theorem mem_blk (t : Fin cfg2.N) (i : S100000x64.Idx) :
    i ∈ ((cfg2.win 9).blk t).view.set
      ↔ ∀ a : Fin 2, win2_9.index t a * S10000x64.size a ≤ (i a).val ∧ (i a).val < win2_9.index t a * S10000x64.size a + S10000x64.size a := by
  show i ∈ ((View.whole main_v45).slice (win2_9.rect t)).set ↔ _
  rw [View.set_slice_whole, Rect.mem_set_unit]
  exact Iff.rfl

/-- Every index of the output array is in some point's block: row `r` is in block `r / 10000`. -/
theorem cover (i : S100000x64.Idx) :
    ∃ t : Fin cfg2.N, (cfg2.win 9).flush t = true ∧ i ∈ ((cfg2.win 9).blk t).view.set := by
  have hi0 : (i 0).val < 100000 := (i 0).isLt
  have hi1 : (i 1).val < 64 := (i 1).isLt
  have hN : (i 0).val / 10000 < cfg2.N := by rw [show cfg2.N = 10 from N_2]; omega
  obtain ⟨-, -, -, -, e0, e1, -⟩ := idx_facts ⟨(i 0).val / 10000, hN⟩
  refine ⟨⟨(i 0).val / 10000, hN⟩, flush2_9 _, ?_⟩
  rw [mem_blk]
  intro a
  match a with
  | ⟨0, _⟩ =>
    show win2_9.index ⟨(i 0).val / 10000, hN⟩ (0 : Fin 2) * 10000 ≤ (i 0).val ∧ (i 0).val < win2_9.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win2_9.index ⟨(i 0).val / 10000, hN⟩ (1 : Fin 2) * 64 ≤ (i 1).val ∧ (i 1).val < win2_9.index ⟨(i 0).val / 10000, hN⟩ (1 : Fin 2) * 64 + 64
    rw [e1]; omega

/-- After region 2, its output array holds the dense layer of the arrays its nine input windows read, as the region
    found them: block `t` of the output is the layer of rows 10000·t … 10000·t + 9999, and the ten blocks cover it. -/
theorem arr (c : Dev nD) :
    (dat2 (F := Ideal) V c).arrAt 9 cfg2.N
      = Cert.Spec.dense 100000 32 64 (V c main_v44) (V c main_v31) (V c main_arg10) (V c main_arg11) (V c main_arg12) (V c main_arg21) (V c main_arg22) (V c main_arg23) (V c main_arg24) :=
  (dat2 (F := Ideal) V c).arrAt_eq_of_cover 9 _ (fun t _ => flushed_eq V c t) cover

end Cert.KernelIdeal.Dense2

end
-- ==== Proof.RefDense1.lean ====
/-
  The reference's layer 1, read as mathematics: its rectified, normalised output table is the dense layer
  (Proof/Spec.lean) of the aggregated table and the node table it is computed from.
-/
import proofs.«408070_j46729244181070_3_alg».proof.Proof.Gen.ReferenceIdeal.Read
import proofs.«408070_j46729244181070_3_alg».proof.Proof.Spec
import Idealize.ShloMosaic.Lib.ValueIdx

noncomputable section

namespace Cert.RefDense1

open Cert.ReferenceIdeal Cert.ReferenceIdeal.Read Idealize.ShloMosaic Idealize.ShloMosaic.ValueIdx

/-- Layer 1 of the reference: the stage after the rectifier is the dense layer of the stage the edge aggregation
    leaves and of the layer's input table, with the layer's weights, bias and running statistics. -/
theorem layer (x0 : (⟨S100000x4, .f32⟩ : BufTy).Contents (Elt Ideal)) (x1 : (⟨S2x3200000, .i32⟩ : BufTy).Contents (Elt Ideal)) (x2 : (⟨S3200000, .f32⟩ : BufTy).Contents (Elt Ideal)) (x4 x5 : (⟨S4x16, .f32⟩ : BufTy).Contents (Elt Ideal)) (x6 x13 x14 x15 x16 : (⟨S16, .f32⟩ : BufTy).Contents (Elt Ideal)) :
    val_main_v36 (F := Ideal) x0 x1 x2 x4 x5 x6 x13 x14 x15 x16
      = Cert.Spec.dense 100000 4 16 (val_main_v16 (F := Ideal) x0 x1 x2) x0 x4 x5 x6 x13 x14 x15 x16 := by
  funext i
  obtain ⟨r, q, rfl⟩ : ∃ (r : Fin 100000) (q : Fin 16), i = ix2 r q := ⟨i 0, i 1, eq_ix2 i⟩
  -- the entry (r, q) of the dense layer, as the formula of one entry
  rw [Cert.Spec.dense_apply]
  -- where each operand is read: row r of the two tables, column q of the two weights, entry q of the five vectors
  have hal : ∀ k : Fin 4, lidx_main_v17 (ix2 r q) k = ix2 r k := fun k =>
    funext fun a => Fin.ext (by match a with | ⟨0, _⟩ => rfl | ⟨1, _⟩ => rfl)
  have har : ∀ k : Fin 4, ridx_main_v17 (ix2 r q) k = ix2 k q := fun k =>
    funext fun a => Fin.ext (by match a with | ⟨0, _⟩ => rfl | ⟨1, _⟩ => rfl)
  have hxl : ∀ k : Fin 4, lidx_main_v21 (ix2 r q) k = ix2 r k := fun k =>
    funext fun a => Fin.ext (by match a with | ⟨0, _⟩ => rfl | ⟨1, _⟩ => rfl)
  have hxr : ∀ k : Fin 4, ridx_main_v21 (ix2 r q) k = ix2 k q := fun k =>
    funext fun a => Fin.ext (by match a with | ⟨0, _⟩ => rfl | ⟨1, _⟩ => rfl)
  have hb : idx_main_v18 (idx_main_v19 (ix2 r q)) = ix1 q :=
    funext fun a => Fin.ext (by match a with | ⟨0, _⟩ => rfl)
  have hmu : idx_main_v23 (idx_main_v24 (ix2 r q)) = ix1 q :=
    funext fun a => Fin.ext (by match a with | ⟨0, _⟩ => rfl)
  have hg : idx_main_v30 (idx_main_v31 (ix2 r q)) = ix1 q :=
    funext fun a => Fin.ext (by match a with | ⟨0, _⟩ => rfl)
  have hbe : idx_main_v33 (idx_main_v34 (ix2 r q)) = ix1 q :=
    funext fun a => Fin.ext (by match a with | ⟨0, _⟩ => rfl)
  -- every operation of the layer read at the entry, from the rectifier inwards
  rw [val_main_v36_apply, val_main_call0_v0_apply, val_main_call0_cst_apply, val_main_v35_apply, val_main_v34_apply,
    val_main_v33_apply, val_main_v32_apply, val_main_v31_apply, val_main_v30_apply, val_main_v29_apply, val_main_v28_apply,
    val_main_v27_apply, val_main_v26_apply, val_main_cst_1_apply, val_main_v25_apply, val_main_v24_apply, val_main_v23_apply,
    val_main_v22_apply, val_main_v21_apply, val_main_v20_apply, val_main_v19_apply, val_main_v18_apply, val_main_v17_apply]
  -- the aggregated table enters both sides as the same table, never opened
  generalize val_main_v16 (F := Ideal) x0 x1 x2 = A
  simp only [hal, har, hxl, hxr, hb, hmu, hg, hbe, Ideal.addf_def, Ideal.subf_def, Ideal.mulf_def, Ideal.maximumf_def,
    Ideal.hostUnary_rsqrt_def, Ideal.ofBits_def]
  rfl

end Cert.RefDense1

end
-- ==== Proof.RefDense2.lean ====
/-
  The reference's layer 2, read as mathematics: its rectified, normalised output table is the dense layer
  (Proof/Spec.lean) of the aggregated table and the node table it is computed from.
-/
import proofs.«408070_j46729244181070_3_alg».proof.Proof.Gen.ReferenceIdeal.Read
import proofs.«408070_j46729244181070_3_alg».proof.Proof.Spec
import Idealize.ShloMosaic.Lib.ValueIdx

noncomputable section

namespace Cert.RefDense2

open Cert.ReferenceIdeal Cert.ReferenceIdeal.Read Idealize.ShloMosaic Idealize.ShloMosaic.ValueIdx

/-- Layer 2 of the reference: the stage after the rectifier is the dense layer of the stage the edge aggregation
    leaves and of the layer's input table, with the layer's weights, bias and running statistics. -/
theorem layer (x0 : (⟨S100000x4, .f32⟩ : BufTy).Contents (Elt Ideal)) (x1 : (⟨S2x3200000, .i32⟩ : BufTy).Contents (Elt Ideal)) (x2 : (⟨S3200000, .f32⟩ : BufTy).Contents (Elt Ideal)) (x4 x5 : (⟨S4x16, .f32⟩ : BufTy).Contents (Elt Ideal)) (x6 : (⟨S16, .f32⟩ : BufTy).Contents (Elt Ideal)) (x7 x8 : (⟨S16x32, .f32⟩ : BufTy).Contents (Elt Ideal)) (x9 : (⟨S32, .f32⟩ : BufTy).Contents (Elt Ideal)) (x13 x14 x15 x16 : (⟨S16, .f32⟩ : BufTy).Contents (Elt Ideal)) (x17 x18 x19 x20 : (⟨S32, .f32⟩ : BufTy).Contents (Elt Ideal)) :
    val_main_v69 (F := Ideal) x0 x1 x2 x4 x5 x6 x7 x8 x9 x13 x14 x15 x16 x17 x18 x19 x20
      = Cert.Spec.dense 100000 16 32 (val_main_v49 (F := Ideal) x0 x1 x2 x4 x5 x6 x13 x14 x15 x16) (val_main_v36 (F := Ideal) x0 x1 x2 x4 x5 x6 x13 x14 x15 x16) x7 x8 x9 x17 x18 x19 x20 := by
  funext i
  obtain ⟨r, q, rfl⟩ : ∃ (r : Fin 100000) (q : Fin 32), i = ix2 r q := ⟨i 0, i 1, eq_ix2 i⟩
  -- the entry (r, q) of the dense layer, as the formula of one entry
  rw [Cert.Spec.dense_apply]
  -- where each operand is read: row r of the two tables, column q of the two weights, entry q of the five vectors
  have hal : ∀ k : Fin 16, lidx_main_v50 (ix2 r q) k = ix2 r k := fun k =>
    funext fun a => Fin.ext (by match a with | ⟨0, _⟩ => rfl | ⟨1, _⟩ => rfl)
  have har : ∀ k : Fin 16, ridx_main_v50 (ix2 r q) k = ix2 k q := fun k =>
    funext fun a => Fin.ext (by match a with | ⟨0, _⟩ => rfl | ⟨1, _⟩ => rfl)
  have hxl : ∀ k : Fin 16, lidx_main_v54 (ix2 r q) k = ix2 r k := fun k =>
    funext fun a => Fin.ext (by match a with | ⟨0, _⟩ => rfl | ⟨1, _⟩ => rfl)
  have hxr : ∀ k : Fin 16, ridx_main_v54 (ix2 r q) k = ix2 k q := fun k =>
    funext fun a => Fin.ext (by match a with | ⟨0, _⟩ => rfl | ⟨1, _⟩ => rfl)
  have hb : idx_main_v51 (idx_main_v52 (ix2 r q)) = ix1 q :=
    funext fun a => Fin.ext (by match a with | ⟨0, _⟩ => rfl)
  have hmu : idx_main_v56 (idx_main_v57 (ix2 r q)) = ix1 q :=
    funext fun a => Fin.ext (by match a with | ⟨0, _⟩ => rfl)
  have hg : idx_main_v63 (idx_main_v64 (ix2 r q)) = ix1 q :=
    funext fun a => Fin.ext (by match a with | ⟨0, _⟩ => rfl)
  have hbe : idx_main_v66 (idx_main_v67 (ix2 r q)) = ix1 q :=
    funext fun a => Fin.ext (by match a with | ⟨0, _⟩ => rfl)
  -- every operation of the layer read at the entry, from the rectifier inwards
  rw [val_main_v69_apply, val_main_call1_v0_apply, val_main_call1_cst_apply, val_main_v68_apply, val_main_v67_apply,
    val_main_v66_apply, val_main_v65_apply, val_main_v64_apply, val_main_v63_apply, val_main_v62_apply, val_main_v61_apply,
    val_main_v60_apply, val_main_v59_apply, val_main_cst_5_apply, val_main_v58_apply, val_main_v57_apply, val_main_v56_apply,
    val_main_v55_apply, val_main_v54_apply, val_main_v53_apply, val_main_v52_apply, val_main_v51_apply, val_main_v50_apply]
  -- the aggregated table and the layer's input table enter both sides as the same tables, never opened
  generalize val_main_v49 (F := Ideal) x0 x1 x2 x4 x5 x6 x13 x14 x15 x16 = A
  generalize val_main_v36 (F := Ideal) x0 x1 x2 x4 x5 x6 x13 x14 x15 x16 = X
  simp only [hal, har, hxl, hxr, hb, hmu, hg, hbe, Ideal.addf_def, Ideal.subf_def, Ideal.mulf_def, Ideal.maximumf_def,
    Ideal.hostUnary_rsqrt_def, Ideal.ofBits_def]
  rfl

end Cert.RefDense2

end
-- ==== Proof.RefDense3.lean ====
/-
  The reference's layer 3, read as mathematics: its rectified, normalised output table is the dense layer
  (Proof/Spec.lean) of the aggregated table and the node table it is computed from.
-/
import proofs.«408070_j46729244181070_3_alg».proof.Proof.Gen.ReferenceIdeal.Read
import proofs.«408070_j46729244181070_3_alg».proof.Proof.Spec
import Idealize.ShloMosaic.Lib.ValueIdx

noncomputable section

namespace Cert.RefDense3

open Cert.ReferenceIdeal Cert.ReferenceIdeal.Read Idealize.ShloMosaic Idealize.ShloMosaic.ValueIdx

/-- Layer 3 of the reference: the stage after the rectifier is the dense layer of the stage the edge aggregation
    leaves and of the layer's input table, with the layer's weights, bias and running statistics. -/
theorem layer (x0 : (⟨S100000x4, .f32⟩ : BufTy).Contents (Elt Ideal)) (x1 : (⟨S2x3200000, .i32⟩ : BufTy).Contents (Elt Ideal)) (x2 : (⟨S3200000, .f32⟩ : BufTy).Contents (Elt Ideal)) (x4 x5 : (⟨S4x16, .f32⟩ : BufTy).Contents (Elt Ideal)) (x6 : (⟨S16, .f32⟩ : BufTy).Contents (Elt Ideal)) (x7 x8 : (⟨S16x32, .f32⟩ : BufTy).Contents (Elt Ideal)) (x9 : (⟨S32, .f32⟩ : BufTy).Contents (Elt Ideal)) (x10 x11 : (⟨S32x64, .f32⟩ : BufTy).Contents (Elt Ideal)) (x12 : (⟨S64, .f32⟩ : BufTy).Contents (Elt Ideal)) (x13 x14 x15 x16 : (⟨S16, .f32⟩ : BufTy).Contents (Elt Ideal)) (x17 x18 x19 x20 : (⟨S32, .f32⟩ : BufTy).Contents (Elt Ideal)) (x21 x22 x23 x24 : (⟨S64, .f32⟩ : BufTy).Contents (Elt Ideal)) :
    val_main_v102 (F := Ideal) x0 x1 x2 x4 x5 x6 x7 x8 x9 x10 x11 x12 x13 x14 x15 x16 x17 x18 x19 x20 x21 x22 x23 x24
      = Cert.Spec.dense 100000 32 64 (val_main_v82 (F := Ideal) x0 x1 x2 x4 x5 x6 x7 x8 x9 x13 x14 x15 x16 x17 x18 x19 x20) (val_main_v69 (F := Ideal) x0 x1 x2 x4 x5 x6 x7 x8 x9 x13 x14 x15 x16 x17 x18 x19 x20) x10 x11 x12 x21 x22 x23 x24 := by
  funext i
  obtain ⟨r, q, rfl⟩ : ∃ (r : Fin 100000) (q : Fin 64), i = ix2 r q := ⟨i 0, i 1, eq_ix2 i⟩
  -- the entry (r, q) of the dense layer, as the formula of one entry
  rw [Cert.Spec.dense_apply]
  -- where each operand is read: row r of the two tables, column q of the two weights, entry q of the five vectors
  have hal : ∀ k : Fin 32, lidx_main_v83 (ix2 r q) k = ix2 r k := fun k =>
    funext fun a => Fin.ext (by match a with | ⟨0, _⟩ => rfl | ⟨1, _⟩ => rfl)
  have har : ∀ k : Fin 32, ridx_main_v83 (ix2 r q) k = ix2 k q := fun k =>
    funext fun a => Fin.ext (by match a with | ⟨0, _⟩ => rfl | ⟨1, _⟩ => rfl)
  have hxl : ∀ k : Fin 32, lidx_main_v87 (ix2 r q) k = ix2 r k := fun k =>
    funext fun a => Fin.ext (by match a with | ⟨0, _⟩ => rfl | ⟨1, _⟩ => rfl)
  have hxr : ∀ k : Fin 32, ridx_main_v87 (ix2 r q) k = ix2 k q := fun k =>
    funext fun a => Fin.ext (by match a with | ⟨0, _⟩ => rfl | ⟨1, _⟩ => rfl)
  have hb : idx_main_v84 (idx_main_v85 (ix2 r q)) = ix1 q :=
    funext fun a => Fin.ext (by match a with | ⟨0, _⟩ => rfl)
  have hmu : idx_main_v89 (idx_main_v90 (ix2 r q)) = ix1 q :=
    funext fun a => Fin.ext (by match a with | ⟨0, _⟩ => rfl)
  have hg : idx_main_v96 (idx_main_v97 (ix2 r q)) = ix1 q :=
    funext fun a => Fin.ext (by match a with | ⟨0, _⟩ => rfl)
  have hbe : idx_main_v99 (idx_main_v100 (ix2 r q)) = ix1 q :=
    funext fun a => Fin.ext (by match a with | ⟨0, _⟩ => rfl)
  -- every operation of the layer read at the entry, from the rectifier inwards
  rw [val_main_v102_apply, val_main_call2_v0_apply, val_main_call2_cst_apply, val_main_v101_apply, val_main_v100_apply,
    val_main_v99_apply, val_main_v98_apply, val_main_v97_apply, val_main_v96_apply, val_main_v95_apply, val_main_v94_apply,
    val_main_v93_apply, val_main_v92_apply, val_main_cst_9_apply, val_main_v91_apply, val_main_v90_apply, val_main_v89_apply,
    val_main_v88_apply, val_main_v87_apply, val_main_v86_apply, val_main_v85_apply, val_main_v84_apply, val_main_v83_apply]
  -- the aggregated table and the layer's input table enter both sides as the same tables, never opened
  generalize val_main_v82 (F := Ideal) x0 x1 x2 x4 x5 x6 x7 x8 x9 x13 x14 x15 x16 x17 x18 x19 x20 = A
  generalize val_main_v69 (F := Ideal) x0 x1 x2 x4 x5 x6 x7 x8 x9 x13 x14 x15 x16 x17 x18 x19 x20 = X
  simp only [hal, har, hxl, hxr, hb, hmu, hg, hbe, Ideal.addf_def, Ideal.subf_def, Ideal.mulf_def, Ideal.maximumf_def,
    Ideal.hostUnary_rsqrt_def, Ideal.ofBits_def]
  rfl

end Cert.RefDense3

end
-- ==== Proof.KernelValue.lean ====
/-
  The kernel's program, read boundary by boundary against the reference's own stages.

  The program's ten segments leave, at each boundary, buffer contents `W0 … W10` that the frame names as a fold
  from the launch memory. The reference is a straight line of host operations, and the generated reading of it
  names each operation's value as a function of the launch arguments (`val_main_vN`). Both programs aggregate over
  the edges with the same host operations; the kernel then applies each dense layer in a pipelined region where
  the reference applies it as host operations. So at each boundary the buffer that matters holds the reference's
  stage of the same arguments:
    after the first stretch, the first aggregated table is the reference's (the same gather, scaling and
    scatter-add of the same arguments), and the two index vectors cut from `edge_index` are the reference's;
    after each region, its output table is the reference's layer, because the region leaves the dense layer of what
    it found and the reference's layer is that dense layer of the same tables;
    after each later stretch, the next aggregated table is the reference's, the same operations on the same tables;
    after the tail, the result is the reference's result.
  A buffer a segment does not write is carried over it unchanged, which is how the launch arguments and the two index
  vectors reach the segments that read them.
-/
import proofs.«408070_j46729244181070_3_alg».proof.Proof.Gen.KernelIdeal.Frame
import proofs.«408070_j46729244181070_3_alg».proof.Proof.Gen.ReferenceIdeal.Read
import proofs.«408070_j46729244181070_3_alg».proof.Proof.Keep
import proofs.«408070_j46729244181070_3_alg».proof.Proof.DenseBlock0
import proofs.«408070_j46729244181070_3_alg».proof.Proof.DenseBlock1
import proofs.«408070_j46729244181070_3_alg».proof.Proof.DenseBlock2
import proofs.«408070_j46729244181070_3_alg».proof.Proof.RefDense1
import proofs.«408070_j46729244181070_3_alg».proof.Proof.RefDense2
import proofs.«408070_j46729244181070_3_alg».proof.Proof.RefDense3

set_option maxRecDepth 16384

noncomputable section

namespace Cert.KernelIdeal.Value

open Cert.KernelIdeal Cert.KernelIdeal.Gen Cert.KernelIdeal.Keep Idealize.ShloMosaic Idealize.ShloMosaic.TcCoe Idealize.SL.Sem Idealize.ShloMosaic.StableHlo
open Cert.ReferenceIdeal.Read (val_main_v1 val_main_v3 val_main_v16 val_main_v36 val_main_v49 val_main_v69 val_main_v82 val_main_v102 val_main_v137)

variable (m : (ℓ : Loc nD τ sig) → Buf (Elt Ideal) ℓ) (ρ : Dev nD → PrngReg)

/-! ## Boundary 1: after the first host stretch -/

/-- The launch contents are the launch memory. -/
theorem W0_eq (c : Dev nD) (b : Ref sig .tc) : W0 m ρ c (Proc.devRef .tc b) = m ((c : Thread nD τ).loc b) := rfl

/-- The edge sources: row 0 of `edge_index`, as the reference cuts it. -/
theorem W1_src (c : Dev nD) : W1 m ρ c (Proc.devRef .tc main_v1) = val_main_v1 (F := Ideal) (m ((c : Thread nD τ).loc main_arg1)) := by
  show StableHlo.after hostOps0 (W0 m ρ c) (Proc.devRef .tc main_v1) = _
  after_results
  rfl

/-- The edge targets: row 1 of `edge_index`, as the reference cuts it. -/
theorem W1_dst (c : Dev nD) : W1 m ρ c (Proc.devRef .tc main_v3) = val_main_v3 (F := Ideal) (m ((c : Thread nD τ).loc main_arg1)) := by
  show StableHlo.after hostOps0 (W0 m ρ c) (Proc.devRef .tc main_v3) = _
  after_results
  rfl

/-- The first aggregated table: the node table gathered at the sources, scaled by the edge weights and summed
    into the targets, the same operations of the same arguments as the reference's. -/
theorem W1_agg (c : Dev nD) :
    W1 m ρ c (Proc.devRef .tc main_v16) = val_main_v16 (F := Ideal) (m ((c : Thread nD τ).loc main_arg0)) (m ((c : Thread nD τ).loc main_arg1)) (m ((c : Thread nD τ).loc main_arg2)) := by
  show StableHlo.after hostOps0 (W0 m ρ c) (Proc.devRef .tc main_v16) = _
  after_results_simp
  rfl

/-- An argument the first stretch does not write is, after it, the launch memory's. -/
theorem W1_arg (c : Dev nD) (b : Ref sig .tc) (h : b ∉ hostOps0_W) : W1 m ρ c (Proc.devRef .tc b) = m ((c : Thread nD τ).loc b) :=
  (W1_of m ρ c b h).trans (W0_eq m ρ c b)

/-! ## Boundary 2: after region 0 (the first dense layer) -/

/-- The first layer's output table: the region leaves in it the dense layer of the aggregated table and the node
    table it found, which are the reference's first aggregated table and the node table; and the reference's first
    layer is that same dense layer. -/
theorem W2_h1 (c : Dev nD) : W2 m ρ c (Proc.devRef .tc main_v17) = val_main_v36 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) := by
  refine (W2_arr m ρ c 9).trans ?_
  rw [Cert.KernelIdeal.Dense0.arr (V1 m ρ) c]
  show Cert.Spec.dense 100000 4 16 (W1 m ρ c (Proc.devRef .tc main_v16)) (W1 m ρ c (Proc.devRef .tc main_arg0)) (W1 m ρ c (Proc.devRef .tc main_arg4))
    (W1 m ρ c (Proc.devRef .tc main_arg5)) (W1 m ρ c (Proc.devRef .tc main_arg6)) (W1 m ρ c (Proc.devRef .tc main_arg13)) (W1 m ρ c (Proc.devRef .tc main_arg14))
    (W1 m ρ c (Proc.devRef .tc main_arg15)) (W1 m ρ c (Proc.devRef .tc main_arg16)) = _
  rw [W1_agg, W1_arg m ρ c main_arg0 (by decide), W1_arg m ρ c main_arg4 (by decide), W1_arg m ρ c main_arg5 (by decide), W1_arg m ρ c main_arg6 (by decide),
    W1_arg m ρ c main_arg13 (by decide), W1_arg m ρ c main_arg14 (by decide), W1_arg m ρ c main_arg15 (by decide), W1_arg m ρ c main_arg16 (by decide)]
  exact (Cert.RefDense1.layer (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16))).symm

/-- Region 0 writes only its output table: the edge sources, the edge targets and every launch argument are as after
    the first stretch. -/
theorem W2_src (c : Dev nD) : W2 m ρ c (Proc.devRef .tc main_v1) = val_main_v1 (F := Ideal) (m ((c : Thread nD τ).loc main_arg1)) :=
  (W2_keep m ρ c main_v1 (by decide)).trans (W1_src m ρ c)
theorem W2_dst (c : Dev nD) : W2 m ρ c (Proc.devRef .tc main_v3) = val_main_v3 (F := Ideal) (m ((c : Thread nD τ).loc main_arg1)) :=
  (W2_keep m ρ c main_v3 (by decide)).trans (W1_dst m ρ c)
theorem W2_arg (c : Dev nD) (b : Ref sig .tc) (h0 : b ∉ hostOps0_W) (h : ∀ w : Fin cfg0.W, Pipeline.arrRef spec0 w = b → (cfg0.win w).isOut = false) :
    W2 m ρ c (Proc.devRef .tc b) = m ((c : Thread nD τ).loc b) :=
  (W2_keep m ρ c b h).trans (W1_arg m ρ c b h0)

/-! ## Boundary 3: after the second host stretch -/

/-- The second aggregated table: the first layer's output gathered at the sources, scaled by the edge weights and
    summed into the targets — the reference's operations on the reference's first-layer output. -/
theorem W3_agg (c : Dev nD) : W3 m ρ c (Proc.devRef .tc main_v30) = val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) := by
  show StableHlo.after hostOps1 (W2 m ρ c) (Proc.devRef .tc main_v30) = _
  after_results_simp
  rw [W2_h1, W2_src, W2_dst, W2_arg m ρ c main_arg2 (by decide) (by decide)]
  rfl

/-- After the second stretch a launch argument is still the launch memory's. -/
theorem W3_arg (c : Dev nD) (b : Ref sig .tc) (h0 : b ∉ hostOps0_W) (k0 : (∀ w : Fin cfg0.W, Pipeline.arrRef spec0 w = b → (cfg0.win w).isOut = false)) (h1 : b ∉ hostOps1_W) :
    W3 m ρ c (Proc.devRef .tc b) = m ((c : Thread nD τ).loc b) :=
  (W3_of m ρ c b h1).trans (W2_arg m ρ c b h0 k0)

/-! ## Boundary 4: after region 1 (the second dense layer) -/

/-- The second layer's output table: the dense layer of the second aggregated table and the first layer's output,
    which is the reference's second layer. -/
theorem W4_h2 (c : Dev nD) : W4 m ρ c (Proc.devRef .tc main_v31) = val_main_v69 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W4_arr m ρ c 9).trans ?_
  rw [Cert.KernelIdeal.Dense1.arr (V3 m ρ) c]
  show Cert.Spec.dense 100000 16 32 (W3 m ρ c (Proc.devRef .tc main_v30)) (W3 m ρ c (Proc.devRef .tc main_v17)) (W3 m ρ c (Proc.devRef .tc main_arg7))
    (W3 m ρ c (Proc.devRef .tc main_arg8)) (W3 m ρ c (Proc.devRef .tc main_arg9)) (W3 m ρ c (Proc.devRef .tc main_arg17)) (W3 m ρ c (Proc.devRef .tc main_arg18))
    (W3 m ρ c (Proc.devRef .tc main_arg19)) (W3 m ρ c (Proc.devRef .tc main_arg20)) = _
  rw [W3_agg, (W3_of m ρ c main_v17 (by decide)).trans (W2_h1 m ρ c), W3_arg m ρ c main_arg7 (by decide) (by decide) (by decide), W3_arg m ρ c main_arg8 (by decide) (by decide) (by decide), W3_arg m ρ c main_arg9 (by decide) (by decide) (by decide), W3_arg m ρ c main_arg17 (by decide) (by decide) (by decide), W3_arg m ρ c main_arg18 (by decide) (by decide) (by decide), W3_arg m ρ c main_arg19 (by decide) (by decide) (by decide), W3_arg m ρ c main_arg20 (by decide) (by decide) (by decide)]
  exact (Cert.RefDense2.layer (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))).symm

theorem W4_src (c : Dev nD) : W4 m ρ c (Proc.devRef .tc main_v1) = val_main_v1 (F := Ideal) (m ((c : Thread nD τ).loc main_arg1)) :=
  (W4_keep m ρ c main_v1 (by decide)).trans ((W3_of m ρ c main_v1 (by decide)).trans (W2_src m ρ c))
theorem W4_dst (c : Dev nD) : W4 m ρ c (Proc.devRef .tc main_v3) = val_main_v3 (F := Ideal) (m ((c : Thread nD τ).loc main_arg1)) :=
  (W4_keep m ρ c main_v3 (by decide)).trans ((W3_of m ρ c main_v3 (by decide)).trans (W2_dst m ρ c))
theorem W4_arg (c : Dev nD) (b : Ref sig .tc) (h0 : b ∉ hostOps0_W) (k0 : (∀ w : Fin cfg0.W, Pipeline.arrRef spec0 w = b → (cfg0.win w).isOut = false)) (h1 : b ∉ hostOps1_W) (k1 : (∀ w : Fin cfg1.W, Pipeline.arrRef spec1 w = b → (cfg1.win w).isOut = false)) :
    W4 m ρ c (Proc.devRef .tc b) = m ((c : Thread nD τ).loc b) :=
  (W4_keep m ρ c b k1).trans (W3_arg m ρ c b h0 k0 h1)

/-! ## Boundary 5: after the third host stretch -/

/-- The third aggregated table: the reference's operations on the reference's second-layer output. -/
theorem W5_agg (c : Dev nD) : W5 m ρ c (Proc.devRef .tc main_v44) = val_main_v82 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  show StableHlo.after hostOps2 (W4 m ρ c) (Proc.devRef .tc main_v44) = _
  after_results_simp
  rw [W4_h2, W4_src, W4_dst, W4_arg m ρ c main_arg2 (by decide) (by decide) (by decide) (by decide)]
  rfl

theorem W5_arg (c : Dev nD) (b : Ref sig .tc) (h0 : b ∉ hostOps0_W) (k0 : (∀ w : Fin cfg0.W, Pipeline.arrRef spec0 w = b → (cfg0.win w).isOut = false)) (h1 : b ∉ hostOps1_W) (k1 : (∀ w : Fin cfg1.W, Pipeline.arrRef spec1 w = b → (cfg1.win w).isOut = false)) (h2 : b ∉ hostOps2_W) :
    W5 m ρ c (Proc.devRef .tc b) = m ((c : Thread nD τ).loc b) :=
  (W5_of m ρ c b h2).trans (W4_arg m ρ c b h0 k0 h1 k1)

/-! ## Boundary 6: after region 2 (the third dense layer) -/

/-- The third layer's output table is the reference's third layer. -/
theorem W6_h3 (c : Dev nD) : W6 m ρ c (Proc.devRef .tc main_v45) = val_main_v102 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W6_arr m ρ c 9).trans ?_
  rw [Cert.KernelIdeal.Dense2.arr (V5 m ρ) c]
  show Cert.Spec.dense 100000 32 64 (W5 m ρ c (Proc.devRef .tc main_v44)) (W5 m ρ c (Proc.devRef .tc main_v31)) (W5 m ρ c (Proc.devRef .tc main_arg10))
    (W5 m ρ c (Proc.devRef .tc main_arg11)) (W5 m ρ c (Proc.devRef .tc main_arg12)) (W5 m ρ c (Proc.devRef .tc main_arg21)) (W5 m ρ c (Proc.devRef .tc main_arg22))
    (W5 m ρ c (Proc.devRef .tc main_arg23)) (W5 m ρ c (Proc.devRef .tc main_arg24)) = _
  rw [W5_agg, (W5_of m ρ c main_v31 (by decide)).trans (W4_h2 m ρ c), W5_arg m ρ c main_arg10 (by decide) (by decide) (by decide) (by decide) (by decide), W5_arg m ρ c main_arg11 (by decide) (by decide) (by decide) (by decide) (by decide), W5_arg m ρ c main_arg12 (by decide) (by decide) (by decide) (by decide) (by decide), W5_arg m ρ c main_arg21 (by decide) (by decide) (by decide) (by decide) (by decide), W5_arg m ρ c main_arg22 (by decide) (by decide) (by decide) (by decide) (by decide), W5_arg m ρ c main_arg23 (by decide) (by decide) (by decide) (by decide) (by decide), W5_arg m ρ c main_arg24 (by decide) (by decide) (by decide) (by decide) (by decide)]
  exact (Cert.RefDense3.layer (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))).symm

theorem W6_arg (c : Dev nD) (b : Ref sig .tc) (h0 : b ∉ hostOps0_W) (k0 : (∀ w : Fin cfg0.W, Pipeline.arrRef spec0 w = b → (cfg0.win w).isOut = false)) (h1 : b ∉ hostOps1_W) (k1 : (∀ w : Fin cfg1.W, Pipeline.arrRef spec1 w = b → (cfg1.win w).isOut = false)) (h2 : b ∉ hostOps2_W) (k2 : (∀ w : Fin cfg2.W, Pipeline.arrRef spec2 w = b → (cfg2.win w).isOut = false)) :
    W6 m ρ c (Proc.devRef .tc b) = m ((c : Thread nD τ).loc b) :=
  (W6_keep m ρ c b k2).trans (W5_arg m ρ c b h0 k0 h1 k1 h2)

/-- The launch arguments the tail reads (the graph assignment, the head's weights, biases and running statistics), at
    the last region's exit: no segment before it writes them. -/
theorem W6_a3 (c : Dev nD) : W6 m ρ c (Proc.devRef .tc main_arg3) = m ((c : Thread nD τ).loc main_arg3) :=
  W6_arg m ρ c main_arg3 (by decide) (by decide) (by decide) (by decide) (by decide) (by decide)
theorem W6_a25 (c : Dev nD) : W6 m ρ c (Proc.devRef .tc main_arg25) = m ((c : Thread nD τ).loc main_arg25) :=
  W6_arg m ρ c main_arg25 (by decide) (by decide) (by decide) (by decide) (by decide) (by decide)
theorem W6_a26 (c : Dev nD) : W6 m ρ c (Proc.devRef .tc main_arg26) = m ((c : Thread nD τ).loc main_arg26) :=
  W6_arg m ρ c main_arg26 (by decide) (by decide) (by decide) (by decide) (by decide) (by decide)
theorem W6_a27 (c : Dev nD) : W6 m ρ c (Proc.devRef .tc main_arg27) = m ((c : Thread nD τ).loc main_arg27) :=
  W6_arg m ρ c main_arg27 (by decide) (by decide) (by decide) (by decide) (by decide) (by decide)
theorem W6_a28 (c : Dev nD) : W6 m ρ c (Proc.devRef .tc main_arg28) = m ((c : Thread nD τ).loc main_arg28) :=
  W6_arg m ρ c main_arg28 (by decide) (by decide) (by decide) (by decide) (by decide) (by decide)
theorem W6_a29 (c : Dev nD) : W6 m ρ c (Proc.devRef .tc main_arg29) = m ((c : Thread nD τ).loc main_arg29) :=
  W6_arg m ρ c main_arg29 (by decide) (by decide) (by decide) (by decide) (by decide) (by decide)
theorem W6_a30 (c : Dev nD) : W6 m ρ c (Proc.devRef .tc main_arg30) = m ((c : Thread nD τ).loc main_arg30) :=
  W6_arg m ρ c main_arg30 (by decide) (by decide) (by decide) (by decide) (by decide) (by decide)
theorem W6_a31 (c : Dev nD) : W6 m ρ c (Proc.devRef .tc main_arg31) = m ((c : Thread nD τ).loc main_arg31) :=
  W6_arg m ρ c main_arg31 (by decide) (by decide) (by decide) (by decide) (by decide) (by decide)
theorem W6_a32 (c : Dev nD) : W6 m ρ c (Proc.devRef .tc main_arg32) = m ((c : Thread nD τ).loc main_arg32) :=
  W6_arg m ρ c main_arg32 (by decide) (by decide) (by decide) (by decide) (by decide) (by decide)

/-! ## Boundaries 7 to 10: the tail, one stretch at a time -/

/-- After the pooling and the head's first linear map and normalisation: the reference's stage before its rectifier. -/
theorem W7_head (c : Dev nD) : W7 m ρ c (Proc.devRef .tc main_v74) = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) := by
  show StableHlo.after hostOps3 (W6 m ρ c) (Proc.devRef .tc main_v74) = _
  after_results_simp
  rw [W6_h3, W6_a3, W6_a25, W6_a26, W6_a27, W6_a28, W6_a29, W6_a30]
  rfl

/-- After the head's rectifier. -/
theorem W8_relu (c : Dev nD) : W8 m ρ c (Proc.devRef .tc main_v75) = Cert.ReferenceIdeal.Read.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) := by
  have h74 := W7_head m ρ c
  show StableHlo.after hostOps3_1 (W7 m ρ c) (Proc.devRef .tc main_v75) = _
  generalize W7 m ρ c = F at h74 ⊢
  after_results_simp
  rw [h74]
  rfl

theorem W8_a31 (c : Dev nD) : W8 m ρ c (Proc.devRef .tc main_arg31) = m ((c : Thread nD τ).loc main_arg31) :=
  (W8_of m ρ c main_arg31 (by decide)).trans ((W7_of m ρ c main_arg31 (by decide)).trans (W6_a31 m ρ c))
theorem W8_a32 (c : Dev nD) : W8 m ρ c (Proc.devRef .tc main_arg32) = m ((c : Thread nD τ).loc main_arg32) :=
  (W8_of m ρ c main_arg32 (by decide)).trans ((W7_of m ρ c main_arg32 (by decide)).trans (W6_a32 m ρ c))

/-- After the head's second linear map and bias: the logits. -/
theorem W9_logits (c : Dev nD) : W9 m ρ c (Proc.devRef .tc main_v79) = Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) := by
  have h75 := W8_relu m ρ c
  have h31 := W8_a31 m ρ c
  have h32 := W8_a32 m ρ c
  show StableHlo.after hostOps3_2 (W8 m ρ c) (Proc.devRef .tc main_v79) = _
  generalize W8 m ρ c = F at h75 h31 h32 ⊢
  after_results_simp
  rw [h75, h31, h32]
  rfl

/-- The result: the log-softmax of the logits, the reference's result. -/
theorem W10_result (c : Dev nD) : W10 m ρ c (Proc.devRef .tc main_v80) = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) := by
  have h79 := W9_logits m ρ c
  show StableHlo.after hostOps3_3 (W9 m ρ c) (Proc.devRef .tc main_v80) = _
  generalize W9 m ρ c = F at h79 ⊢
  after_results_simp
  rw [h79]
  rfl

end Cert.KernelIdeal.Value

end
-- ==== Proof.lean ====
/-
  The certificate of a three-layer graph convolution network: a Pallas kernel that applies each layer's dense map,
  batch normalisation and rectifier in a region pipelined over ten blocks of 10000 nodes, against a reference that
  applies the same layer as host operations on the whole table of 100000 nodes; the edge aggregation before each
  layer and the pooling, two-layer head and log-softmax after the last are the same host operations in both.

  At the ideal values a layer's entry is one formula (Proof/Spec.lean): two inner products over the input features,
  the bias between them, the normalisation by the running statistics, the rectifier. The kernel's matrix product into
  a zero accumulator and the reference's dot_general are the same sum, a block of rows of the layer is the layer of
  those rows, and the ten blocks cover the table; so each region leaves the reference's layer of the arrays it found
  (Proof/DenseBlock*.lean against Proof/RefDense*.lean). The host stretches between the regions are the reference's
  own operations on those arrays, so boundary by boundary the kernel's buffers hold the reference's stages of the
  launch arguments (Proof/KernelValue.lean), up to the result. No law of the extended reals beyond reading each
  operation at an index is used, and the precondition is never opened.

  The three frames are the generated ones (the reference's is its generated run with the result dropped); the ideal
  pass rewrote nothing, so the idealisation claim is trivial.
-/
import proofs.«408070_j46729244181070_3_alg».proof.Defs
import proofs.«408070_j46729244181070_3_alg».proof.Proof.Gen.Kernel
import proofs.«408070_j46729244181070_3_alg».proof.Proof.Gen.Kernel.Frame
import proofs.«408070_j46729244181070_3_alg».proof.Proof.Gen.KernelIdeal
import proofs.«408070_j46729244181070_3_alg».proof.Proof.Gen.KernelIdeal.Frame
import proofs.«408070_j46729244181070_3_alg».proof.Proof.Gen.ReferenceIdeal
import proofs.«408070_j46729244181070_3_alg».proof.Proof.Gen.ReferenceIdeal.Run
import proofs.«408070_j46729244181070_3_alg».proof.Proof.Gen.ReferenceIdeal.Read
import proofs.«408070_j46729244181070_3_alg».proof.Proof.Gen.Pre_finite_inputs
import proofs.«408070_j46729244181070_3_alg».proof.Proof.KernelRun
import proofs.«408070_j46729244181070_3_alg».proof.Proof.KernelValue
import Idealize.ShloMosaic.Adequacy
import Idealize.ShloMosaic.Init

noncomputable section

namespace Cert.Proof

open Idealize.ShloMosaic Idealize.SL.Sem

theorem frame_k [hKernel : Cert.Kernel.Facts] [hPre : Cert.Pre_finite_inputs.Facts] : Cert.frame_Kernel :=
  fun m ρ _ => Cert.Kernel.Gen.frame m ρ

theorem frame_ki [hKernelIdeal : Cert.KernelIdeal.Facts] [hPre : Cert.Pre_finite_inputs.Facts] : Cert.frame_KernelIdeal :=
  fun m ρ _ => Cert.KernelIdeal.Gen.frame m ρ

/-- The reference's frame is its run with the result forgotten. -/
theorem frame_ri [hReferenceIdeal : Cert.ReferenceIdeal.Facts] [hPre : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end, from memories agreeing on the arguments, with the reference's last stage of the kernel's launch
    arguments in their result buffers: the kernel by its run and the boundary-by-boundary reading of it, the reference
    by its generated run, its arguments rewritten to the kernel's by the agreement. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨fun c => Cert.ReferenceIdeal.Read.val_main_v137 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)), ?_, ?_⟩
  · refine (θ_run Cert.KernelIdeal.defs _ _).mono (fun r h c => ⟨(h c).1.trans (Cert.KernelIdeal.Value.W10_result m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v137_eq]
    obtain ⟨e0, e1, e2, e3, e4, e5, e6, e7, e8, e9, e10, e11, e12, e13, e14, e15, e16, e17, e18, e19, e20, e21, e22, e23, e24, e25, e26, e27, e28, e29, e30, e31, e32⟩ := hagree c
    rw [e0, e1, e2, e3, e4, e5, e6, e7, e8, e9, e10, e11, e12, e13, e14, e15, e16, e17, e18, e19, e20, e21, e22, e23, e24, e25, e26, e27, e28, e29, e30, e31, e32]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
